-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : IVec S1024 32) (main_arg3 : IVec S1024 32) (main_v15 : IVec S_ 1) : IVec S_ 1 :=
  let main_c_6 : IVec S_ 32 := constantI S_ 32 1000#32
  let main_v16 : IVec S1024 32 := broadcastInDim S1024 ![] bcast_S_S1024 main_c_6
  let main_v17 : IVec S1024 1 := cmpi .slt main_arg2 main_v16
  let main_c_7 : IVec S_ 1 := constantI S_ 1 1#1
  let main_v18 : IVec S_ 1 := (fun x v => Host.reduce IntOp.andi x v reducesTo_S1024_S_d0 h_S_) main_v17 main_c_7
  let main_v19 : IVec S_ 1 := andi main_v15 main_v18
  let main_c_8 : IVec S_ 32 := constantI S_ 32 0#32
  let main_v20 : IVec S1024 32 := broadcastInDim S1024 ![] bcast_S_S1024 main_c_8
  let main_v21 : IVec S1024 1 := cmpi .sge main_arg3 main_v20
  let main_c_9 : IVec S_ 1 := constantI S_ 1 1#1
  let main_v22 : IVec S_ 1 := (fun x v => Host.reduce IntOp.andi x v reducesTo_S1024_S_d0 h_S_) main_v21 main_c_9
  let main_v23 : IVec S_ 1 := andi main_v19 main_v22
  let main_c_10 : IVec S_ 32 := constantI S_ 32 100000#32
  let main_v24 : IVec S1024 32 := broadcastInDim S1024 ![] bcast_S_S1024 main_c_10
  let main_v25 : IVec S1024 1 := cmpi .slt main_arg3 main_v24
  let main_c_11 : IVec S_ 1 := constantI S_ 1 1#1
  let main_v26 : IVec S_ 1 := (fun x v => Host.reduce IntOp.andi x v reducesTo_S1024_S_d0 h_S_) main_v25 main_c_11
  let main_v27 : IVec S_ 1 := andi main_v23 main_v26
  main_v27

def fn {F : FTy → Type} [FloatOps F] (main_arg0 : FVec F S1024x128 .f32) (main_arg1 : IVec S1024 32) (main_arg2 : IVec S1024 32) (main_arg3 : IVec S1024 32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 1 := constantI S_ 1 1#1
  let main_v6 : IVec S_ 1 := (fun x v => Host.reduce IntOp.andi x v reducesTo_S1024_S_d0 h_S_) main_v5 main_c_1
  let main_v7 : IVec S_ 1 := andi main_v3 main_v6
  let main_c_2 : IVec S_ 32 := constantI S_ 32 100000#32
  let main_v8 : IVec S1024 32 := broadcastInDim S1024 ![] bcast_S_S1024 main_c_2
  let main_v9 : IVec S1024 1 := cmpi .slt main_arg1 main_v8
  let main_c_3 : IVec S_ 1 := constantI S_ 1 1#1
  let main_v10 : IVec S_ 1 := (fun x v => Host.reduce IntOp.andi x v reducesTo_S1024_S_d0 h_S_) main_v9 main_c_3
  let main_v11 : IVec S_ 1 := andi main_v7 main_v10
  let main_c_4 : IVec S_ 32 := constantI S_ 32 0#32
  let main_v12 : IVec S1024 32 := broadcastInDim S1024 ![] bcast_S_S1024 main_c_4
  let main_v13 : IVec S1024 1 := cmpi .sge main_arg2 main_v12
  let main_c_5 : IVec S_ 1 := constantI S_ 1 1#1
  let main_v14 : IVec S_ 1 := (fun x v => Host.reduce IntOp.andi x v reducesTo_S1024_S_d0 h_S_) main_v13 main_c_5
  let main_v15 : IVec S_ 1 := andi main_v11 main_v14
  fn_part1 (F := F) main_arg2 main_arg3 main_v15
-- ==== Kernel.lean ====
abbrev S1024x128 : Shape := ⟨2, ![1024, 128]⟩
abbrev S1024 : Shape := ⟨1, ![1024]⟩
abbrev S1024x1 : Shape := ⟨2, ![1024, 1]⟩
abbrev S1024x201000 : Shape := ⟨2, ![1024, 201000]⟩
abbrev S1024x2048 : Shape := ⟨2, ![1024, 2048]⟩

abbrev nBuf : Space → Nat
  | .hbm => 8
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S1024x1, .i32⟩
  | .hbm, ⟨5, _⟩ => ⟨S1024x1, .i32⟩
  | .hbm, ⟨6, _⟩ => ⟨S1024x1, .i32⟩
  | .hbm, ⟨7, _⟩ => ⟨S1024x201000, .f32⟩
  | .local _ .vmem, ⟨0, _⟩ => ⟨S1024x1, .i32⟩
  | .local _ .vmem, ⟨1, _⟩ => ⟨S1024x1, .i32⟩
  | .local _ .vmem, ⟨2, _⟩ => ⟨S1024x1, .i32⟩
  | .local _ .vmem, ⟨3, _⟩ => ⟨S1024x2048, .f32⟩
  | .local _ .vmem, ⟨4, _⟩ => ⟨S1024x2048, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![99], ![false]⟩

def k0_cond1 (i : grid0.Coords) : BitVec 1 :=
  let arg0 : BitVec 32 := BitVec.ofNat 32 (i 0).val
  let c2048_i32 : BitVec 32 := 2048#32
  let v0 : BitVec 32 := Scalar.muli arg0 c2048_i32
  let c2048_i32_5 : BitVec 32 := 2048#32
  let v8 : BitVec 32 := Scalar.addi v0 c2048_i32_5
  let c100000_i32 : BitVec 32 := 100000#32
  let v9 : BitVec 1 := Scalar.cmpi .sle v8 c100000_i32
  let v11 : BitVec 32 := Scalar.extui v9
  let c0_i32 : BitVec 32 := 0#32
  let v12 : BitVec 1 := Scalar.cmpi .ne v11 c0_i32
  v12

def k0_cond2 (i : grid0.Coords) : BitVec 1 :=
  let arg0 : BitVec 32 := BitVec.ofNat 32 (i 0).val
  let c2048_i32 : BitVec 32 := 2048#32
  let v0 : BitVec 32 := Scalar.muli arg0 c2048_i32
  let c101000_i32 : BitVec 32 := 101000#32
  let v10 : BitVec 1 := Scalar.cmpi .sge v0 c101000_i32
  let v13 : BitVec 32 := Scalar.extui v10
  let c0_i32_6 : BitVec 32 := 0#32
  let v14 : BitVec 1 := Scalar.cmpi .ne v13 c0_i32_6
  v14

def k0_cond3 (i : grid0.Coords) : BitVec 1 :=
  let arg0 : BitVec 32 := BitVec.ofNat 32 (i 0).val
  let c2048_i32 : BitVec 32 := 2048#32
  let v0 : BitVec 32 := Scalar.muli arg0 c2048_i32
  let c2048_i32_5 : BitVec 32 := 2048#32
  let v8 : BitVec 32 := Scalar.addi v0 c2048_i32_5
  let c100000_i32 : BitVec 32 := 100000#32
  let v9 : BitVec 1 := Scalar.cmpi .sle v8 c100000_i32
  let c101000_i32 : BitVec 32 := 101000#32
  let v10 : BitVec 1 := Scalar.cmpi .sge v0 c101000_i32
  let v15 : BitVec 1 := Scalar.ori v9 v10
  let v_true : BitVec 1 := 1#1
  let v16 : BitVec 1 := Scalar.xori v15 v_true
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1024x1 : S1024.ShapeCasts S1024x1
  iota_S1024x2048_d1_w32 : S1024x2048.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  natLt_1_32 : 1 < 32
  inb_S1024x2048_S1024x2048_0_0 : ∀ a, (![0, 0] : Fin 2 → Nat) a + S1024x2048.size a ≤ S1024x2048.size a
  h_S1024x2048 : 0 < S1024x2048.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S1024x1.size a
  hwx0_0 : ∀ i : grid0.Coords, EltTy.bits .i32 = 32 ∨ (Rect.block (s := S1024x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .i32 = 32 ∨ (Rect.block (s := S1024x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x201000.size a
  hwx0_3 : ∀ i : grid0.Coords, EltTy.bits .f32 = 32 ∨ (Rect.unit (s := S1024x201000) (fun a => cc0_transform_3 i a * S1024x2048.size a) (fun a => (Pipeline.Clip.of (cc0_transform_3 i a) (S1024x2048.size a) (S1024x201000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x201000.size a)).extent (S1024x2048.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpec (Memref.whole main_v0) S1024x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S1024x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S1024x128 : Shape := ⟨2, ![1024, 128]⟩
abbrev S1024 : Shape := ⟨1, ![1024]⟩
abbrev S_ : Shape := ⟨0, ![]⟩
abbrev S1024x1 : Shape := ⟨2, ![1024, 1]⟩
abbrev S1024x3 : Shape := ⟨2, ![1024, 3]⟩
abbrev S1024x201000 : Shape := ⟨2, ![1024, 201000]⟩
abbrev S1024x3x1 : Shape := ⟨3, ![1024, 3, 1]⟩
abbrev S1024x3x2 : Shape := ⟨3, ![1024, 3, 2]⟩

abbrev nBuf : Space → Nat
  | .hbm => 39
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x1, .i32⟩
  | .hbm, ⟨13, _⟩ => ⟨S1024x1, .i32⟩
  | .hbm, ⟨14, _⟩ => ⟨S1024x3, .i32⟩
  | .hbm, ⟨15, _⟩ => ⟨S_, .f32⟩
  | .hbm, ⟨16, _⟩ => ⟨S1024x201000, .f32⟩
  | .hbm, ⟨17, _⟩ => ⟨S1024x1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S_, .i32⟩
  | .hbm, ⟨22, _⟩ => ⟨S1024x1, .i32⟩
  | .hbm, ⟨23, _⟩ => ⟨S1024x1, .i32⟩
  | .hbm, ⟨24, _⟩ => ⟨S1024x1, .i32⟩
  | .hbm, ⟨25, _⟩ => ⟨S_, .i32⟩
  | .hbm, ⟨26, _⟩ => ⟨S1024x3, .i32⟩
  | .hbm, ⟨27, _⟩ => ⟨S1024x3, .i1⟩
  | .hbm, ⟨28, _⟩ => ⟨S_, .i32⟩
  | .hbm, ⟨29, _⟩ => ⟨S1024x3, .i32⟩
  | .hbm, ⟨30, _⟩ => ⟨S1024x3, .i32⟩
  | .hbm, ⟨31, _⟩ => ⟨S1024x3, .i32⟩
  | .hbm, ⟨32, _⟩ => ⟨S1024x3, .i32⟩
  | .hbm, ⟨33, _⟩ => ⟨S1024x3x1, .i32⟩
  | .hbm, ⟨34, _⟩ => ⟨S1024x3x1, .i32⟩
  | .hbm, ⟨35, _⟩ => ⟨S1024x3x2, .i32⟩
  | .hbm, ⟨36, _⟩ => ⟨S_, .f32⟩
  | .hbm, ⟨37, _⟩ => ⟨S1024x3, .f32⟩
  | .hbm, ⟨38, _⟩ => ⟨S1024x201000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x1_S1024x3_d1 : Shape.Concatenates [S1024x1, S1024x1, S1024x1] S1024x3 1
  bcast_S_S1024x201000 : S_.BroadcastsInDim S1024x201000 (![] : Fin 0 → Fin S1024x201000.rank)
  bcast_S_S1024x1 : S_.BroadcastsInDim S1024x1 (![] : Fin 0 → Fin S1024x1.rank)
  bcast_S_S1024x3 : S_.BroadcastsInDim S1024x3 (![] : Fin 0 → Fin S1024x3.rank)
  bcast_S1024x1_S1024x3_0_1 : S1024x1.BroadcastsInDim S1024x3 (![0, 1] : Fin 2 → Fin S1024x3.rank)
  bcast_S1024x3_S1024x3x1_0_1 : S1024x3.BroadcastsInDim S1024x3x1 (![0, 1] : Fin 2 → Fin S1024x3x1.rank)
  concatenates_S1024x3x1_S1024x3x1_S1024x3x2_d2 : Shape.Concatenates [S1024x3x1, S1024x3x1] S1024x3x2 2
  scatter_S1024x201000_S1024x3x2_S1024x3_n_01_01_2_wf : ScatterDims.WF S1024x201000 S1024x3x2 S1024x3 [] [0, 1] [0, 1] 2

variable [Facts₀]

def scatter_S1024x201000_S1024x3x2_S1024x3_n_01_01_2 : ScatterDims S1024x201000 S1024x3x2 S1024x3 where
  updateWindowDims := []
  insertedWindowDims := [0, 1]
  scatterDimsToOperandDims := [0, 1]
  indexVectorDim := 2
  wf := scatter_S1024x201000_S1024x3x2_S1024x3_n_01_01_2_wf

class Facts : Prop extends Facts₀ where

variable [Facts]
-- ==== Proof.KBData.lean ====
/-
  The kernel's 99 grid points each own one block of 2048 columns of the result. The body has three guarded
  stores, and which one fires depends only on where the block lies: blocks 0..47 end at or before column 100000
  (the head segment) and store the head-only comparison; blocks 50..98 start at or after column 101000 (the tail
  segment) and store the tail-only comparison; blocks 48 and 49 straddle the segment boundaries and store the
  three-way comparison. Exactly one guard holds at every point, so after the body the result's staging buffer
  always holds that point's stored value; this file names it (`out3`) and gives the pipeline's proof data.
-/
import proofs.«412208_j44203803411098_3_alg».proof.Proof.Gen.Kernel.Frame
import proofs.«412208_j44203803411098_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three guards, decided over the grid -/

/-- The head-only guard (`2048·(j+1) ≤ 100000`) holds exactly at points 0..47. -/
theorem hcond1 : ∀ t : Fin cfg0.N, k0_cond1 (grid0.coords t) = 1#1 ↔ t.val < 48 :=
  (by decide +kernel : ∀ t : Fin grid0.N, k0_cond1 (grid0.coords t) = 1#1 ↔ t.val < 48)
/-- The tail-only guard (`2048·j ≥ 101000`) holds exactly at points 50..98. -/
theorem hcond2 : ∀ t : Fin cfg0.N, k0_cond2 (grid0.coords t) = 1#1 ↔ 50 ≤ t.val :=
  (by decide +kernel : ∀ t : Fin grid0.N, k0_cond2 (grid0.coords t) = 1#1 ↔ 50 ≤ t.val)
/-- The fallback guard (neither of the two) holds exactly at points 48 and 49. -/
theorem hcond3 : ∀ t : Fin cfg0.N, k0_cond3 (grid0.coords t) = 1#1 ↔ (48 ≤ t.val ∧ t.val < 50) :=
  (by decide +kernel : ∀ t : Fin grid0.N, k0_cond3 (grid0.coords t) = 1#1 ↔ (48 ≤ t.val ∧ t.val < 50))

/-! ## What the result's staging buffer holds after the body -/

/-- After the body at point `t` the result's staging buffer holds the one store that fired there: the head-only
    comparison at points 0..47, the tail-only one at points 50..98, the three-way one at points 48 and 49 — each
    the skeleton's payload of the id blocks (which are the whole id columns at every point). -/
def out3 (c : Dev nD) (t : Fin cfg0.N) : Vec F S1024x2048 .f32 :=
  if t.val < 48 then k0_pay3 (grid0.coords t) (iblk m c 0 t)
  else if 50 ≤ t.val then k0_pay4 (grid0.coords t) (iblk m c 2 t)
  else k0_pay5 (grid0.coords t) (iblk m c 0 t) (iblk m c 1 t) (iblk m c 2 t)

theorem out3_head (c : Dev nD) (t : Fin cfg0.N) (h : t.val < 48) :
    out3 m c t = k0_pay3 (grid0.coords t) (iblk m c 0 t) := if_pos h
theorem out3_tail (c : Dev nD) (t : Fin cfg0.N) (h : 50 ≤ t.val) :
    out3 m c t = k0_pay4 (grid0.coords t) (iblk m c 2 t) := by
  unfold out3; rw [if_neg (by omega), if_pos h]
theorem out3_mid (c : Dev nD) (t : Fin cfg0.N) (h1 : 48 ≤ t.val) (h2 : t.val < 50) :
    out3 m c t = k0_pay5 (grid0.coords t) (iblk m c 0 t) (iblk m c 1 t) (iblk m c 2 t) := by
  unfold out3; rw [if_neg (by omega), if_neg (by omega)]

/-! ## The pipeline's proof data -/

/-- The arrays as the region finds them; after the body each id window's buffer still holds its block and the
    result's buffer holds `out3`; the invariant is the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]

end Cert.Kernel.Body

end
-- ==== Proof.KBRuns.lean ====
/-
  The kernel body run once per control case, on any whole staging buffers: it loads the three id blocks, and of its
  three guarded stores exactly one fires — the guards are decided by the case's hypotheses — writing the whole
  result buffer; the id buffers are left as found. What the result buffer ends with is recorded as the list of
  stores made (one whole-buffer store in every case).
-/
import proofs.«412208_j44203803411098_3_alg».proof.Proof.KBData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A block inside the head segment: only the first guard holds, the head-only comparison is stored. -/
noncomputable def kernelRun_A (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : k0_cond1 i = 1#1) (h2 : ¬ k0_cond2 i = 1#1) (h3 : ¬ k0_cond3 i = 1#1)
    (x1 x2 x3 : Vec F S1024x1 .i32) :
    { L : List (View.Piece (Elt F) S1024x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E (cc0__onehot_kernel i arg1 harg1 arg2 harg2 arg3 harg3 arg4 harg4) K } := by
  refine ⟨?_, fun E K => ?run⟩
  case run =>
    simp only [cc0__onehot_kernel_eq_skeleton]; unfold cc0__onehot_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1
    obtain rfl := harg2.eq_unread hf2
    obtain rfl := harg3.eq_unread hf3
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

set_option maxHeartbeats 1000000 in
/-- A block that straddles a segment boundary: only the third guard holds, the three-way comparison is stored. -/
noncomputable def kernelRun_B (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : ¬ k0_cond2 i = 1#1) (h3 : k0_cond3 i = 1#1)
    (x1 x2 x3 : Vec F S1024x1 .i32) :
    { L : List (View.Piece (Elt F) S1024x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E (cc0__onehot_kernel i arg1 harg1 arg2 harg2 arg3 harg3 arg4 harg4) K } := by
  refine ⟨?_, fun E K => ?run⟩
  case run =>
    simp only [cc0__onehot_kernel_eq_skeleton]; unfold cc0__onehot_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1
    obtain rfl := harg2.eq_unread hf2
    obtain rfl := harg3.eq_unread hf3
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

set_option maxHeartbeats 1000000 in
/-- A block inside the tail segment: only the second guard holds, the tail-only comparison is stored. -/
noncomputable def kernelRun_C (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : k0_cond2 i = 1#1) (h3 : ¬ k0_cond3 i = 1#1)
    (x1 x2 x3 : Vec F S1024x1 .i32) :
    { L : List (View.Piece (Elt F) S1024x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E (cc0__onehot_kernel i arg1 harg1 arg2 harg2 arg3 harg3 arg4 harg4) K } := by
  refine ⟨?_, fun E K => ?run⟩
  case run =>
    simp only [cc0__onehot_kernel_eq_skeleton]; unfold cc0__onehot_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1
    obtain rfl := harg2.eq_unread hf2
    obtain rfl := harg3.eq_unread hf3
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

end Cert.Kernel.Body

end
-- ==== Proof.KBBody.lean ====
/-
  The kernel body at a generic grid point: the body, called on the point's staging buffers, finds the three id
  blocks in place (they are fetched once and never written) and the result buffer at anything, makes the one
  store its point's case makes, and leaves the id buffers as found.
-/
import proofs.«412208_j44203803411098_3_alg».proof.Proof.KBRuns
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result window, through which buffer contents are stated. -/
abbrev VO3 : View sig .tc .vmem S1024x2048 .f32 := (Memref.whole cc0_stg3_0 : Memref sig .tc .vmem S1024x2048 .f32).view

/-- Each window's current staging buffer at point `t`, as the pipeline passes it to the body, and its wholeness. -/
abbrev ms0 (t : Fin cfg0.N) : Memref sig .tc .vmem S1024x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)

theorem hz2 : (![0, 0] : Fin 2 → Nat) = fun _ => 0 := funext fun a => by fin_cases a <;> rfl

/-! ## What each case stores -/

/-- Case A's one store covers the result buffer. -/
theorem cover_A (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : k0_cond1 i = 1#1) (h2 : ¬ k0_cond2 i = 1#1) (h3 : ¬ k0_cond3 i = 1#1)
    (x1 x2 x3 : Vec F S1024x1 .i32) (y : S1024x2048.Idx) :
    ∃ pc ∈ (kernelRun_A c i arg1 harg1 arg2 harg2 arg3 harg3 arg4 harg4 h1 h2 h3 x1 x2 x3).1, y ∈ pc.1.set :=
  View.cover_of_tiledL (kernelRun_A c i arg1 harg1 arg2 harg2 arg3 harg3 arg4 harg4 h1 h2 h3 x1 x2 x3).1 S1024x2048.size (by sl_kernel_rfl) y

/-- What case A leaves in the result buffer is its store's payload of the id blocks. -/
theorem stored_A (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : k0_cond1 i = 1#1) (h2 : ¬ k0_cond2 i = 1#1) (h3 : ¬ k0_cond3 i = 1#1)
    (x1 x2 x3 : Vec F S1024x1 .i32) :
    VO3.read (Elt F) (VO3.writes (Elt F) VO3.junk (kernelRun_A c i arg1 harg1 arg2 harg2 arg3 harg3 arg4 harg4 h1 h2 h3 x1 x2 x3).1) = k0_pay3 i x1 := by
  rw [View.read_writes_eq_canon _ _ _ (cover_A c i arg1 harg1 arg2 harg2 arg3 harg3 arg4 harg4 h1 h2 h3 x1 x2 x3)]
  unfold kernelRun_A; dsimp only; sl_unfold_words
  rw [View.canon_unit_zero hz2]
  simp only [View.readAt_eq_ld, harg1.read_unread, harg2.read_unread, harg3.read_unread, View.ld_unit_zero (S := S1024x1) hz2]

/-- Case B's one store covers the result buffer. -/
theorem cover_B (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : ¬ k0_cond2 i = 1#1) (h3 : k0_cond3 i = 1#1)
    (x1 x2 x3 : Vec F S1024x1 .i32) (y : S1024x2048.Idx) :
    ∃ pc ∈ (kernelRun_B c i arg1 harg1 arg2 harg2 arg3 harg3 arg4 harg4 h1 h2 h3 x1 x2 x3).1, y ∈ pc.1.set :=
  View.cover_of_tiledL (kernelRun_B c i arg1 harg1 arg2 harg2 arg3 harg3 arg4 harg4 h1 h2 h3 x1 x2 x3).1 S1024x2048.size (by sl_kernel_rfl) y

/-- What case B leaves in the result buffer is its store's payload of the id blocks. -/
theorem stored_B (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : ¬ k0_cond2 i = 1#1) (h3 : k0_cond3 i = 1#1)
    (x1 x2 x3 : Vec F S1024x1 .i32) :
    VO3.read (Elt F) (VO3.writes (Elt F) VO3.junk (kernelRun_B c i arg1 harg1 arg2 harg2 arg3 harg3 arg4 harg4 h1 h2 h3 x1 x2 x3).1) = k0_pay5 i x1 x2 x3 := by
  rw [View.read_writes_eq_canon _ _ _ (cover_B c i arg1 harg1 arg2 harg2 arg3 harg3 arg4 harg4 h1 h2 h3 x1 x2 x3)]
  unfold kernelRun_B; dsimp only; sl_unfold_words
  rw [View.canon_unit_zero hz2]
  simp only [View.readAt_eq_ld, harg1.read_unread, harg2.read_unread, harg3.read_unread, View.ld_unit_zero (S := S1024x1) hz2]

/-- Case C's one store covers the result buffer. -/
theorem cover_C (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : k0_cond2 i = 1#1) (h3 : ¬ k0_cond3 i = 1#1)
    (x1 x2 x3 : Vec F S1024x1 .i32) (y : S1024x2048.Idx) :
    ∃ pc ∈ (kernelRun_C c i arg1 harg1 arg2 harg2 arg3 harg3 arg4 harg4 h1 h2 h3 x1 x2 x3).1, y ∈ pc.1.set :=
  View.cover_of_tiledL (kernelRun_C c i arg1 harg1 arg2 harg2 arg3 harg3 arg4 harg4 h1 h2 h3 x1 x2 x3).1 S1024x2048.size (by sl_kernel_rfl) y

/-- What case C leaves in the result buffer is its store's payload of the id blocks. -/
theorem stored_C (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : k0_cond2 i = 1#1) (h3 : ¬ k0_cond3 i = 1#1)
    (x1 x2 x3 : Vec F S1024x1 .i32) :
    VO3.read (Elt F) (VO3.writes (Elt F) VO3.junk (kernelRun_C c i arg1 harg1 arg2 harg2 arg3 harg3 arg4 harg4 h1 h2 h3 x1 x2 x3).1) = k0_pay4 i x3 := by
  rw [View.read_writes_eq_canon _ _ _ (cover_C c i arg1 harg1 arg2 harg2 arg3 harg3 arg4 harg4 h1 h2 h3 x1 x2 x3)]
  unfold kernelRun_C; dsimp only; sl_unfold_words
  rw [View.canon_unit_zero hz2]
  simp only [View.readAt_eq_ld, harg1.read_unread, harg2.read_unread, harg3.read_unread, View.ld_unit_zero (S := S1024x1) hz2]

/-! ## The id windows' buffers at every point -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The result window is idle at no point: one of the three guards holds everywhere. -/
theorem hidle3 (t : Fin cfg0.N) : idle0 3 (grid0.coords t) = false := by
  show (!(k0_cond1 (grid0.coords t) == 1#1) && !(k0_cond2 (grid0.coords t) == 1#1) && !(k0_cond3 (grid0.coords t) == 1#1)) = false
  by_cases hA : t.val < 48
  · simp only [(hcond1 t).mpr hA, beq_self_eq_true, Bool.not_true, Bool.false_and]
  by_cases hC : 50 ≤ t.val
  · simp only [(hcond2 t).mpr hC, beq_self_eq_true, Bool.not_true, Bool.and_false, Bool.false_and]
  · simp only [(hcond3 t).mpr ⟨by omega, by omega⟩, beq_self_eq_true, Bool.not_true, Bool.and_false]

/-! ## The body obligation -/

/-- The id windows are idle at no point (they state no idle point at all), -/
theorem hidle0c (i : cfg0.grid.Coords) : cfg0.idle (0 : Fin 4) i = false := rfl
/-- nor is the result window, in the pipeline's own spelling of the point's coordinates. -/
theorem hidle3c (t : Fin cfg0.N) : cfg0.idle (3 : Fin 4) (cfg0.grid.coords t) = false := by
  simp only [hidle3 t]

/-- The label table's row at point `t` is the kernel function called on the point's staging buffers. -/
theorem prog_eq (t : Fin cfg0.N) : defs₀ (F := F) Proc.tc cfg0.body (cfg0.bodyArgs t (cfg0.slots t)) = bodyAt0 t := by
  unfold defs₀ bodyAt0; rfl

set_option maxHeartbeats 1600000 in
/-- The library's body obligation, at every point: the id buffers hold their blocks; the point's position among the
    segments says which case it is in; that case's run applies and leaves the result buffer at the case's store;
    the invariant passes through unread; the core owes nothing. -/
theorem body_obligation (c : Dev nD) : BodyObligation (dats (F := F) m 0 c) (defs₀ (F := F)) Variants.none () Set.univ := fun t => by
  rw [bigSep_W0, bigSep_W0]
  rw [hidle0c, hidle3c t, prog_eq t]
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases hA : t.val < 48
  · -- inside the head segment
    rw [out3_head m c t hA]
    iintro ⟨HΦ, Ho, ⟨%d0, H0⟩, ⟨%d1, H1⟩, ⟨%d2, H2⟩, ⟨%d3, H3⟩⟩
    iapply ((kernelRun_A c (grid0.coords t) _ _ _ _ _ _ _ _ ((hcond1 t).mpr hA) (fun h => by have := (hcond2 t).mp h; omega) (fun h => by have := (hcond3 t).mp h; omega)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ VO3 VO3.junk _ (cover_A c _ _ _ _ _ _ _ _ _ _ _ _ _ _ _)).trans
      (stored_A c _ _ _ _ _ _ _ _ _ _ _ _ _ _ _)
  by_cases hC : 50 ≤ t.val
  · -- inside the tail segment
    rw [out3_tail m c t hC]
    iintro ⟨HΦ, Ho, ⟨%d0, H0⟩, ⟨%d1, H1⟩, ⟨%d2, H2⟩, ⟨%d3, H3⟩⟩
    iapply ((kernelRun_C c (grid0.coords t) _ _ _ _ _ _ _ _ (fun h => by have := (hcond1 t).mp h; omega) ((hcond2 t).mpr hC) (fun h => by have := (hcond3 t).mp h; omega)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ VO3 VO3.junk _ (cover_C c _ _ _ _ _ _ _ _ _ _ _ _ _ _ _)).trans
      (stored_C c _ _ _ _ _ _ _ _ _ _ _ _ _ _ _)
  · -- across a segment boundary
    rw [out3_mid m c t (by omega) (by omega)]
    iintro ⟨HΦ, Ho, ⟨%d0, H0⟩, ⟨%d1, H1⟩, ⟨%d2, H2⟩, ⟨%d3, H3⟩⟩
    iapply ((kernelRun_B c (grid0.coords t) _ _ _ _ _ _ _ _ (fun h => by have := (hcond1 t).mp h; omega) (fun h => by have := (hcond2 t).mp h; omega) ((hcond3 t).mpr ⟨by omega, by omega⟩)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ VO3 VO3.junk _ (cover_B c _ _ _ _ _ _ _ _ _ _ _ _ _ _ _)).trans
      (stored_B c _ _ _ _ _ _ _ _ _ _ _ _ _ _ _)

end Cert.Kernel.Body

end
-- ==== Proof.KBFrame.lean ====
/-
  The kernel's frame: with the body's obligation met at every point, the pipeline runs to its end, the result
  array holding what the points wrote back and every argument array what it held.
-/
import proofs.«412208_j44203803411098_3_alg».proof.Proof.KBBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- From any memory with zero counters every weakly fair execution of @main terminates, every array of the pipeline
    at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KIData.lean ====
/-
  The kernel's 99 grid points each own one block of 2048 columns of the result. The body has three guarded
  stores, and which one fires depends only on where the block lies: blocks 0..47 end at or before column 100000
  (the head segment) and store the head-only comparison; blocks 50..98 start at or after column 101000 (the tail
  segment) and store the tail-only comparison; blocks 48 and 49 straddle the segment boundaries and store the
  three-way comparison. Exactly one guard holds at every point, so after the body the result's staging buffer
  always holds that point's stored value; this file names it (`out3`) and gives the pipeline's proof data.
-/
import proofs.«412208_j44203803411098_3_alg».proof.Proof.Gen.KernelIdeal.Frame
import proofs.«412208_j44203803411098_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three guards, decided over the grid -/

/-- The head-only guard (`2048·(j+1) ≤ 100000`) holds exactly at points 0..47. -/
theorem hcond1 : ∀ t : Fin cfg0.N, k0_cond1 (grid0.coords t) = 1#1 ↔ t.val < 48 :=
  (by decide +kernel : ∀ t : Fin grid0.N, k0_cond1 (grid0.coords t) = 1#1 ↔ t.val < 48)
/-- The tail-only guard (`2048·j ≥ 101000`) holds exactly at points 50..98. -/
theorem hcond2 : ∀ t : Fin cfg0.N, k0_cond2 (grid0.coords t) = 1#1 ↔ 50 ≤ t.val :=
  (by decide +kernel : ∀ t : Fin grid0.N, k0_cond2 (grid0.coords t) = 1#1 ↔ 50 ≤ t.val)
/-- The fallback guard (neither of the two) holds exactly at points 48 and 49. -/
theorem hcond3 : ∀ t : Fin cfg0.N, k0_cond3 (grid0.coords t) = 1#1 ↔ (48 ≤ t.val ∧ t.val < 50) :=
  (by decide +kernel : ∀ t : Fin grid0.N, k0_cond3 (grid0.coords t) = 1#1 ↔ (48 ≤ t.val ∧ t.val < 50))

/-! ## What the result's staging buffer holds after the body -/

/-- After the body at point `t` the result's staging buffer holds the one store that fired there: the head-only
    comparison at points 0..47, the tail-only one at points 50..98, the three-way one at points 48 and 49 — each
    the skeleton's payload of the id blocks (which are the whole id columns at every point). -/
def out3 (c : Dev nD) (t : Fin cfg0.N) : Vec F S1024x2048 .f32 :=
  if t.val < 48 then k0_pay3 (grid0.coords t) (iblk m c 0 t)
  else if 50 ≤ t.val then k0_pay4 (grid0.coords t) (iblk m c 2 t)
  else k0_pay5 (grid0.coords t) (iblk m c 0 t) (iblk m c 1 t) (iblk m c 2 t)

theorem out3_head (c : Dev nD) (t : Fin cfg0.N) (h : t.val < 48) :
    out3 m c t = k0_pay3 (grid0.coords t) (iblk m c 0 t) := if_pos h
theorem out3_tail (c : Dev nD) (t : Fin cfg0.N) (h : 50 ≤ t.val) :
    out3 m c t = k0_pay4 (grid0.coords t) (iblk m c 2 t) := by
  unfold out3; rw [if_neg (by omega), if_pos h]
theorem out3_mid (c : Dev nD) (t : Fin cfg0.N) (h1 : 48 ≤ t.val) (h2 : t.val < 50) :
    out3 m c t = k0_pay5 (grid0.coords t) (iblk m c 0 t) (iblk m c 1 t) (iblk m c 2 t) := by
  unfold out3; rw [if_neg (by omega), if_neg (by omega)]

/-! ## The pipeline's proof data -/

/-- The arrays as the region finds them; after the body each id window's buffer still holds its block and the
    result's buffer holds `out3`; the invariant is the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]

end Cert.KernelIdeal.Body

end
-- ==== Proof.KIRuns.lean ====
/-
  The kernel body run once per control case, on any whole staging buffers: it loads the three id blocks, and of its
  three guarded stores exactly one fires — the guards are decided by the case's hypotheses — writing the whole
  result buffer; the id buffers are left as found. What the result buffer ends with is recorded as the list of
  stores made (one whole-buffer store in every case).
-/
import proofs.«412208_j44203803411098_3_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A block inside the head segment: only the first guard holds, the head-only comparison is stored. -/
noncomputable def kernelRun_A (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : k0_cond1 i = 1#1) (h2 : ¬ k0_cond2 i = 1#1) (h3 : ¬ k0_cond3 i = 1#1)
    (x1 x2 x3 : Vec F S1024x1 .i32) :
    { L : List (View.Piece (Elt F) S1024x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E (cc0__onehot_kernel i arg1 harg1 arg2 harg2 arg3 harg3 arg4 harg4) K } := by
  refine ⟨?_, fun E K => ?run⟩
  case run =>
    simp only [cc0__onehot_kernel_eq_skeleton]; unfold cc0__onehot_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1
    obtain rfl := harg2.eq_unread hf2
    obtain rfl := harg3.eq_unread hf3
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

set_option maxHeartbeats 1000000 in
/-- A block that straddles a segment boundary: only the third guard holds, the three-way comparison is stored. -/
noncomputable def kernelRun_B (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : ¬ k0_cond2 i = 1#1) (h3 : k0_cond3 i = 1#1)
    (x1 x2 x3 : Vec F S1024x1 .i32) :
    { L : List (View.Piece (Elt F) S1024x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E (cc0__onehot_kernel i arg1 harg1 arg2 harg2 arg3 harg3 arg4 harg4) K } := by
  refine ⟨?_, fun E K => ?run⟩
  case run =>
    simp only [cc0__onehot_kernel_eq_skeleton]; unfold cc0__onehot_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1
    obtain rfl := harg2.eq_unread hf2
    obtain rfl := harg3.eq_unread hf3
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

set_option maxHeartbeats 1000000 in
/-- A block inside the tail segment: only the second guard holds, the tail-only comparison is stored. -/
noncomputable def kernelRun_C (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : k0_cond2 i = 1#1) (h3 : ¬ k0_cond3 i = 1#1)
    (x1 x2 x3 : Vec F S1024x1 .i32) :
    { L : List (View.Piece (Elt F) S1024x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E (cc0__onehot_kernel i arg1 harg1 arg2 harg2 arg3 harg3 arg4 harg4) K } := by
  refine ⟨?_, fun E K => ?run⟩
  case run =>
    simp only [cc0__onehot_kernel_eq_skeleton]; unfold cc0__onehot_kernel_skel
    unfold owns
    iintro ⟨⟨%f1, %hf1, H1⟩, ⟨%f2, %hf2, H2⟩, ⟨%f3, %hf3, H3⟩, ⟨%d4, %f4, -, H4⟩, Hk⟩
    obtain rfl := harg1.eq_unread hf1
    obtain rfl := harg2.eq_unread hf2
    obtain rfl := harg3.eq_unread hf3
    sl_exec (disch := first | exact h1 | exact h2 | exact h3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

end Cert.KernelIdeal.Body

end
-- ==== Proof.KIBody.lean ====
/-
  The kernel body at a generic grid point: the body, called on the point's staging buffers, finds the three id
  blocks in place (they are fetched once and never written) and the result buffer at anything, makes the one
  store its point's case makes, and leaves the id buffers as found.
-/
import proofs.«412208_j44203803411098_3_alg».proof.Proof.KIRuns
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the result window, through which buffer contents are stated. -/
abbrev VO3 : View sig .tc .vmem S1024x2048 .f32 := (Memref.whole cc0_stg3_0 : Memref sig .tc .vmem S1024x2048 .f32).view

/-- Each window's current staging buffer at point `t`, as the pipeline passes it to the body, and its wholeness. -/
abbrev ms0 (t : Fin cfg0.N) : Memref sig .tc .vmem S1024x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2048 .f32 := win0_3.stage (cfg0.slots t 3)
abbrev hs3 (t : Fin cfg0.N) : (ms3 t).IsWhole := hstage0_3 ((cfg0.slots t 3).cast nbuf0_3)

theorem hz2 : (![0, 0] : Fin 2 → Nat) = fun _ => 0 := funext fun a => by fin_cases a <;> rfl

/-! ## What each case stores -/

/-- Case A's one store covers the result buffer. -/
theorem cover_A (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : k0_cond1 i = 1#1) (h2 : ¬ k0_cond2 i = 1#1) (h3 : ¬ k0_cond3 i = 1#1)
    (x1 x2 x3 : Vec F S1024x1 .i32) (y : S1024x2048.Idx) :
    ∃ pc ∈ (kernelRun_A c i arg1 harg1 arg2 harg2 arg3 harg3 arg4 harg4 h1 h2 h3 x1 x2 x3).1, y ∈ pc.1.set :=
  View.cover_of_tiledL (kernelRun_A c i arg1 harg1 arg2 harg2 arg3 harg3 arg4 harg4 h1 h2 h3 x1 x2 x3).1 S1024x2048.size (by sl_kernel_rfl) y

/-- What case A leaves in the result buffer is its store's payload of the id blocks. -/
theorem stored_A (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : k0_cond1 i = 1#1) (h2 : ¬ k0_cond2 i = 1#1) (h3 : ¬ k0_cond3 i = 1#1)
    (x1 x2 x3 : Vec F S1024x1 .i32) :
    VO3.read (Elt F) (VO3.writes (Elt F) VO3.junk (kernelRun_A c i arg1 harg1 arg2 harg2 arg3 harg3 arg4 harg4 h1 h2 h3 x1 x2 x3).1) = k0_pay3 i x1 := by
  rw [View.read_writes_eq_canon _ _ _ (cover_A c i arg1 harg1 arg2 harg2 arg3 harg3 arg4 harg4 h1 h2 h3 x1 x2 x3)]
  unfold kernelRun_A; dsimp only; sl_unfold_words
  rw [View.canon_unit_zero hz2]
  simp only [View.readAt_eq_ld, harg1.read_unread, harg2.read_unread, harg3.read_unread, View.ld_unit_zero (S := S1024x1) hz2]

/-- Case B's one store covers the result buffer. -/
theorem cover_B (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : ¬ k0_cond2 i = 1#1) (h3 : k0_cond3 i = 1#1)
    (x1 x2 x3 : Vec F S1024x1 .i32) (y : S1024x2048.Idx) :
    ∃ pc ∈ (kernelRun_B c i arg1 harg1 arg2 harg2 arg3 harg3 arg4 harg4 h1 h2 h3 x1 x2 x3).1, y ∈ pc.1.set :=
  View.cover_of_tiledL (kernelRun_B c i arg1 harg1 arg2 harg2 arg3 harg3 arg4 harg4 h1 h2 h3 x1 x2 x3).1 S1024x2048.size (by sl_kernel_rfl) y

/-- What case B leaves in the result buffer is its store's payload of the id blocks. -/
theorem stored_B (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : ¬ k0_cond2 i = 1#1) (h3 : k0_cond3 i = 1#1)
    (x1 x2 x3 : Vec F S1024x1 .i32) :
    VO3.read (Elt F) (VO3.writes (Elt F) VO3.junk (kernelRun_B c i arg1 harg1 arg2 harg2 arg3 harg3 arg4 harg4 h1 h2 h3 x1 x2 x3).1) = k0_pay5 i x1 x2 x3 := by
  rw [View.read_writes_eq_canon _ _ _ (cover_B c i arg1 harg1 arg2 harg2 arg3 harg3 arg4 harg4 h1 h2 h3 x1 x2 x3)]
  unfold kernelRun_B; dsimp only; sl_unfold_words
  rw [View.canon_unit_zero hz2]
  simp only [View.readAt_eq_ld, harg1.read_unread, harg2.read_unread, harg3.read_unread, View.ld_unit_zero (S := S1024x1) hz2]

/-- Case C's one store covers the result buffer. -/
theorem cover_C (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : k0_cond2 i = 1#1) (h3 : ¬ k0_cond3 i = 1#1)
    (x1 x2 x3 : Vec F S1024x1 .i32) (y : S1024x2048.Idx) :
    ∃ pc ∈ (kernelRun_C c i arg1 harg1 arg2 harg2 arg3 harg3 arg4 harg4 h1 h2 h3 x1 x2 x3).1, y ∈ pc.1.set :=
  View.cover_of_tiledL (kernelRun_C c i arg1 harg1 arg2 harg2 arg3 harg3 arg4 harg4 h1 h2 h3 x1 x2 x3).1 S1024x2048.size (by sl_kernel_rfl) y

/-- What case C leaves in the result buffer is its store's payload of the id blocks. -/
theorem stored_C (c : Dev nD) (i : grid0.Coords)
    (arg1 : Memref sig .tc .vmem S1024x1 .i32) (harg1 : arg1.IsWhole) (arg2 : Memref sig .tc .vmem S1024x1 .i32) (harg2 : arg2.IsWhole)
    (arg3 : Memref sig .tc .vmem S1024x1 .i32) (harg3 : arg3.IsWhole) (arg4 : Memref sig .tc .vmem S1024x2048 .f32) (harg4 : arg4.IsWhole)
    (h1 : ¬ k0_cond1 i = 1#1) (h2 : k0_cond2 i = 1#1) (h3 : ¬ k0_cond3 i = 1#1)
    (x1 x2 x3 : Vec F S1024x1 .i32) :
    VO3.read (Elt F) (VO3.writes (Elt F) VO3.junk (kernelRun_C c i arg1 harg1 arg2 harg2 arg3 harg3 arg4 harg4 h1 h2 h3 x1 x2 x3).1) = k0_pay4 i x3 := by
  rw [View.read_writes_eq_canon _ _ _ (cover_C c i arg1 harg1 arg2 harg2 arg3 harg3 arg4 harg4 h1 h2 h3 x1 x2 x3)]
  unfold kernelRun_C; dsimp only; sl_unfold_words
  rw [View.canon_unit_zero hz2]
  simp only [View.readAt_eq_ld, harg1.read_unread, harg2.read_unread, harg3.read_unread, View.ld_unit_zero (S := S1024x1) hz2]

/-! ## The id windows' buffers at every point -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The result window is idle at no point: one of the three guards holds everywhere. -/
theorem hidle3 (t : Fin cfg0.N) : idle0 3 (grid0.coords t) = false := by
  show (!(k0_cond1 (grid0.coords t) == 1#1) && !(k0_cond2 (grid0.coords t) == 1#1) && !(k0_cond3 (grid0.coords t) == 1#1)) = false
  by_cases hA : t.val < 48
  · simp only [(hcond1 t).mpr hA, beq_self_eq_true, Bool.not_true, Bool.false_and]
  by_cases hC : 50 ≤ t.val
  · simp only [(hcond2 t).mpr hC, beq_self_eq_true, Bool.not_true, Bool.and_false, Bool.false_and]
  · simp only [(hcond3 t).mpr ⟨by omega, by omega⟩, beq_self_eq_true, Bool.not_true, Bool.and_false]

/-! ## The body obligation -/

/-- The id windows are idle at no point (they state no idle point at all), -/
theorem hidle0c (i : cfg0.grid.Coords) : cfg0.idle (0 : Fin 4) i = false := rfl
/-- nor is the result window, in the pipeline's own spelling of the point's coordinates. -/
theorem hidle3c (t : Fin cfg0.N) : cfg0.idle (3 : Fin 4) (cfg0.grid.coords t) = false := by
  simp only [hidle3 t]

/-- The label table's row at point `t` is the kernel function called on the point's staging buffers. -/
theorem prog_eq (t : Fin cfg0.N) : defs₀ (F := F) Proc.tc cfg0.body (cfg0.bodyArgs t (cfg0.slots t)) = bodyAt0 t := by
  unfold defs₀ bodyAt0; rfl

set_option maxHeartbeats 1600000 in
/-- The library's body obligation, at every point: the id buffers hold their blocks; the point's position among the
    segments says which case it is in; that case's run applies and leaves the result buffer at the case's store;
    the invariant passes through unread; the core owes nothing. -/
theorem body_obligation (c : Dev nD) : BodyObligation (dats (F := F) m 0 c) (defs₀ (F := F)) Variants.none () Set.univ := fun t => by
  rw [bigSep_W0, bigSep_W0]
  rw [hidle0c, hidle3c t, prog_eq t]
  unfold bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases hA : t.val < 48
  · -- inside the head segment
    rw [out3_head m c t hA]
    iintro ⟨HΦ, Ho, ⟨%d0, H0⟩, ⟨%d1, H1⟩, ⟨%d2, H2⟩, ⟨%d3, H3⟩⟩
    iapply ((kernelRun_A c (grid0.coords t) _ _ _ _ _ _ _ _ ((hcond1 t).mpr hA) (fun h => by have := (hcond2 t).mp h; omega) (fun h => by have := (hcond3 t).mp h; omega)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ VO3 VO3.junk _ (cover_A c _ _ _ _ _ _ _ _ _ _ _ _ _ _ _)).trans
      (stored_A c _ _ _ _ _ _ _ _ _ _ _ _ _ _ _)
  by_cases hC : 50 ≤ t.val
  · -- inside the tail segment
    rw [out3_tail m c t hC]
    iintro ⟨HΦ, Ho, ⟨%d0, H0⟩, ⟨%d1, H1⟩, ⟨%d2, H2⟩, ⟨%d3, H3⟩⟩
    iapply ((kernelRun_C c (grid0.coords t) _ _ _ _ _ _ _ _ (fun h => by have := (hcond1 t).mp h; omega) ((hcond2 t).mpr hC) (fun h => by have := (hcond3 t).mp h; omega)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ VO3 VO3.junk _ (cover_C c _ _ _ _ _ _ _ _ _ _ _ _ _ _ _)).trans
      (stored_C c _ _ _ _ _ _ _ _ _ _ _ _ _ _ _)
  · -- across a segment boundary
    rw [out3_mid m c t (by omega) (by omega)]
    iintro ⟨HΦ, Ho, ⟨%d0, H0⟩, ⟨%d1, H1⟩, ⟨%d2, H2⟩, ⟨%d3, H3⟩⟩
    iapply ((kernelRun_B c (grid0.coords t) _ _ _ _ _ _ _ _ (fun h => by have := (hcond1 t).mp h; omega) (fun h => by have := (hcond2 t).mp h; omega) ((hcond3 t).mpr ⟨by omega, by omega⟩)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ VO3 VO3.junk _ (cover_B c _ _ _ _ _ _ _ _ _ _ _ _ _ _ _)).trans
      (stored_B c _ _ _ _ _ _ _ _ _ _ _ _ _ _ _)

end Cert.KernelIdeal.Body

end
-- ==== Proof.KIFrame.lean ====
/-
  The kernel's frame: with the body's obligation met at every point, the pipeline runs to its end, the result
  array holding what the points wrote back and every argument array what it held.
-/
import proofs.«412208_j44203803411098_3_alg».proof.Proof.KIBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

set_option backward.isDefEq.respectTransparency.types false in
/-- From any memory with zero counters every weakly fair execution of @main terminates, every array of the pipeline
    at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The function both programs compute on ids inside their label ranges: row `b` of the result is the concatenation of
  three one-hot rows — of the head id among 100000 entities, of the relation id among 1000 relations, and of the tail
  id among 100000 entities — so the entry at column `c` is 1 exactly when `c` is the head id, or 100000 plus the
  relation id, or 101000 plus the tail id, and 0 otherwise. Inside the label ranges the three columns fall in the
  three disjoint segments [0, 100000), [100000, 101000) and [101000, 201000).
-/
import Idealize.ShloMosaic.PureOps.Ideal
import Idealize.ShloMosaic.Lib.ValueIdx

noncomputable section

namespace Cert.OneHot

open Idealize.ShloMosaic Idealize.ShloMosaic.ValueIdx

/-- The shape of each id vector (one id per row). -/
abbrev SIds : Shape := ⟨1, ![1024]⟩
/-- The shape of the result: 1024 rows of 100000 + 1000 + 100000 columns. -/
abbrev SOut : Shape := ⟨2, ![1024, 201000]⟩

/-- Every id lies in its label range: heads and tails below 100000, relations below 1000 (as unsigned words;
    for a signed word this is `0 ≤ id < bound`). -/
def InRange (h r t : IVec SIds 32) : Prop :=
  ∀ b : Fin 1024, (h (ix1 b)).toNat < 100000 ∧ (r (ix1 b)).toNat < 1000 ∧ (t (ix1 b)).toNat < 100000

/-- The three target columns of row `b`. -/
def colH (h : IVec SIds 32) (b : Fin 1024) : Nat := (h (ix1 b)).toNat
def colR (r : IVec SIds 32) (b : Fin 1024) : Nat := 100000 + (r (ix1 b)).toNat
def colT (t : IVec SIds 32) (b : Fin 1024) : Nat := 101000 + (t (ix1 b)).toNat

/-- Whether column `c` of row `b` is one of the row's three target columns. -/
def Hit (h r t : IVec SIds 32) (b : Fin 1024) (c : Nat) : Prop :=
  c = colH h b ∨ c = colR r b ∨ c = colT t b

instance (h r t : IVec SIds 32) (b : Fin 1024) (c : Nat) : Decidable (Hit h r t b c) := by
  unfold Hit; infer_instance

/-- The result, as extended reals: 1 on the three target columns of each row, 0 elsewhere. -/
def oneHot (h r t : IVec SIds 32) : FVec Ideal SOut .f32 := fun i =>
  if Hit h r t ⟨(i 0).val, idx2_lt0 i⟩ (i 1).val then (1 : EReal) else 0

theorem oneHot_apply (h r t : IVec SIds 32) (b : Fin 1024) (c : Fin 201000) :
    oneHot h r t (ix2 b c) = if Hit h r t b c.val then (1 : EReal) else 0 := rfl

end Cert.OneHot

end
-- ==== Proof.KIPay.lean ====
/-
  What the result's staging buffer holds after the body, read at one element, over the extended reals: row `b`,
  column `q` of block `t` is 1 when global column `2048·t + q` is one of row `b`'s three target columns and 0
  otherwise. The body compares the block-local column `q` with each target shifted down by the block's first column
  `2048·t` (in 32-bit arithmetic, where the shift cancels), and a block that lies wholly inside the head segment or the
  tail segment can only ever meet that segment's target, which is why one comparison is enough there.
-/
import proofs.«412208_j44203803411098_3_alg».proof.Proof.KIData
import proofs.«412208_j44203803411098_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.OneHot

/-! ## Words and bits -/

namespace Pay

/-- A one-bit word widened to 32 bits and converted, over the extended reals: 1 if the bit is set, else 0. -/
theorem bit_toReal (w : BitVec 1) (P : Prop) [Decidable P] (h : w = 1#1 ↔ P) :
    ((((w.setWidth 32).toInt : ℤ) : ℝ) : EReal) = if P then (1 : EReal) else 0 := by
  by_cases hP : P
  · rw [if_pos hP, h.mpr hP]; norm_num
  · rw [if_neg hP]
    have h0 : w = 0#1 := ValueIdx.eq_zero_of_ne_one (fun e => hP (h.mp e))
    rw [h0]; norm_num

/-- The OR of two one-bit words is set exactly when one of them is. -/
theorem ori_bit : ∀ u v : BitVec 1, IntOp.ori u v = 1#1 ↔ (u = 1#1 ∨ v = 1#1) := by decide

/-- The block-local column equals a target shifted down by the block's first column, in 32-bit words, exactly when
    the global column equals the target: nothing wraps. -/
theorem word_eq (q n : Nat) (y : BitVec 32) (hq : q < 2048) (hn : n < 99) (hy : y.toNat < 300000) :
    BitVec.ofNat 32 q = y - Scalar.muli (BitVec.ofNat 32 n) 2048#32 ↔ 2048 * n + q = y.toNat := by
  show BitVec.ofNat 32 q = y - BitVec.ofNat 32 n * 2048#32 ↔ _
  rw [← BitVec.toNat_inj, BitVec.toNat_sub, BitVec.toNat_mul, BitVec.toNat_ofNat, BitVec.toNat_ofNat]
  have h2 : (2048#32).toNat = 2048 := rfl
  rw [h2]
  omega

/-- A small constant added to a small word does not wrap. -/
theorem toNat_const_add (k : Nat) (x : BitVec 32) (hk : k < 200000) (hx : x.toNat < 100000) :
    (IntOp.addi (BitVec.ofNat 32 k) x).toNat = k + x.toNat := by
  show (BitVec.ofNat 32 k + x).toNat = _
  rw [BitVec.toNat_add, BitVec.toNat_ofNat]
  omega

/-- The column index along the block's second axis, and a one-column vector spread over the block's columns, read
    at element (`b`, `q`). -/
theorem iota_at (b : Fin 1024) (q : Fin 2048) :
    iota .tc S1024x2048 32 [1] iota_S1024x2048_d1_w32 (ix2 b q) = BitVec.ofNat 32 q.val :=
  iota_single_apply _ _ _ _ _ _

theorem spread_at (v : IVec S1024x1 32) (b : Fin 1024) (q : Fin 2048) :
    broadcastTo S1024x2048 v broadcasts_S1024x1_S1024x2048 (ix2 b q) = v (ix2 b 0) := by
  refine broadcastTo_apply _ _ (ix2 b q) (ix2 b 0) ?_
  intro a
  match a with
  | ⟨0, _⟩ => rfl
  | ⟨1, _⟩ => rfl

/-- The head-only comparison at element (`b`, `q`) of block `n`. -/
theorem pay3_apply (i : grid0.Coords) (n : Nat) (hi : (i 0).val = n) (hn : n < 99)
    (x1 : Vec Ideal S1024x1 .i32) (b : Fin 1024) (q : Fin 2048) (hx : (x1 (ix2 b 0)).toNat < 100000) :
    k0_pay3 (F := Ideal) i x1 (ix2 b q)
      = if 2048 * n + q.val = (x1 (ix2 b 0)).toNat then (1 : EReal) else 0 := by
  subst hi
  show ((((IntOp.cmpi .eq (iota .tc S1024x2048 32 [1] iota_S1024x2048_d1_w32 (ix2 b q))
      (broadcastTo S1024x2048 (subi (shapeCast S1024x1 x1 shapeCasts_S1024x1_S1024x1)
        (broadcast S1024x1 (Scalar.muli (BitVec.ofNat 32 (i 0).val) 2048#32))) broadcasts_S1024x1_S1024x2048 (ix2 b q))).setWidth 32).toInt : ℝ) : EReal) = _
  rw [iota_at, spread_at, shapeCast_self]
  exact bit_toReal _ _ (IntOp.cmpi_eq.trans (word_eq q.val (i 0).val (x1 (ix2 b 0)) q.isLt hn (by omega)))

/-- The tail-only comparison at element (`b`, `q`) of block `n`. -/
theorem pay4_apply (i : grid0.Coords) (n : Nat) (hi : (i 0).val = n) (hn : n < 99)
    (x3 : Vec Ideal S1024x1 .i32) (b : Fin 1024) (q : Fin 2048) (hx : (x3 (ix2 b 0)).toNat < 100000) :
    k0_pay4 (F := Ideal) i x3 (ix2 b q)
      = if 2048 * n + q.val = 101000 + (x3 (ix2 b 0)).toNat then (1 : EReal) else 0 := by
  subst hi
  show ((((IntOp.cmpi .eq (iota .tc S1024x2048 32 [1] iota_S1024x2048_d1_w32 (ix2 b q))
      (broadcastTo S1024x2048 (subi (addi (broadcast S1024x1 101000#32) (shapeCast S1024x1 x3 shapeCasts_S1024x1_S1024x1))
        (broadcast S1024x1 (Scalar.muli (BitVec.ofNat 32 (i 0).val) 2048#32))) broadcasts_S1024x1_S1024x2048 (ix2 b q))).setWidth 32).toInt : ℝ) : EReal) = _
  rw [iota_at, spread_at, shapeCast_self]
  have hy := toNat_const_add 101000 (x3 (ix2 b 0)) (by omega) hx
  refine bit_toReal _ _ (IntOp.cmpi_eq.trans ((word_eq q.val (i 0).val (IntOp.addi 101000#32 (x3 (ix2 b 0))) q.isLt hn (by omega)).trans ?_))
  rw [hy]

/-- The three-way comparison at element (`b`, `q`) of block `n`. -/
theorem pay5_apply (i : grid0.Coords) (n : Nat) (hi : (i 0).val = n) (hn : n < 99)
    (x1 x2 x3 : Vec Ideal S1024x1 .i32) (b : Fin 1024) (q : Fin 2048) (h1 : (x1 (ix2 b 0)).toNat < 100000)
    (h2 : (x2 (ix2 b 0)).toNat < 1000) (h3 : (x3 (ix2 b 0)).toNat < 100000) :
    k0_pay5 (F := Ideal) i x1 x2 x3 (ix2 b q)
      = if 2048 * n + q.val = (x1 (ix2 b 0)).toNat ∨ 2048 * n + q.val = 100000 + (x2 (ix2 b 0)).toNat
            ∨ 2048 * n + q.val = 101000 + (x3 (ix2 b 0)).toNat then (1 : EReal) else 0 := by
  subst hi
  show ((((IntOp.ori (IntOp.ori
      (IntOp.cmpi .eq (iota .tc S1024x2048 32 [1] iota_S1024x2048_d1_w32 (ix2 b q))
        (broadcastTo S1024x2048 (subi (shapeCast S1024x1 x1 shapeCasts_S1024x1_S1024x1)
          (broadcast S1024x1 (Scalar.muli (BitVec.ofNat 32 (i 0).val) 2048#32))) broadcasts_S1024x1_S1024x2048 (ix2 b q)))
      (IntOp.cmpi .eq (iota .tc S1024x2048 32 [1] iota_S1024x2048_d1_w32 (ix2 b q))
        (broadcastTo S1024x2048 (subi (addi (broadcast S1024x1 100000#32) (shapeCast S1024x1 x2 shapeCasts_S1024x1_S1024x1))
          (broadcast S1024x1 (Scalar.muli (BitVec.ofNat 32 (i 0).val) 2048#32))) broadcasts_S1024x1_S1024x2048 (ix2 b q))))
      (IntOp.cmpi .eq (iota .tc S1024x2048 32 [1] iota_S1024x2048_d1_w32 (ix2 b q))
        (broadcastTo S1024x2048 (subi (addi (broadcast S1024x1 101000#32) (shapeCast S1024x1 x3 shapeCasts_S1024x1_S1024x1))
          (broadcast S1024x1 (Scalar.muli (BitVec.ofNat 32 (i 0).val) 2048#32))) broadcasts_S1024x1_S1024x2048 (ix2 b q)))
      ).setWidth 32).toInt : ℝ) : EReal) = _
  rw [iota_at, spread_at, spread_at, spread_at, shapeCast_self, shapeCast_self, shapeCast_self]
  have hy2 := toNat_const_add 100000 (x2 (ix2 b 0)) (by omega) (by omega)
  have hy3 := toNat_const_add 101000 (x3 (ix2 b 0)) (by omega) h3
  have w1 := IntOp.cmpi_eq.trans (word_eq q.val (i 0).val (x1 (ix2 b 0)) q.isLt hn (by omega))
  have w2 := IntOp.cmpi_eq.trans (word_eq q.val (i 0).val (IntOp.addi 100000#32 (x2 (ix2 b 0))) q.isLt hn (by omega))
  have w3 := IntOp.cmpi_eq.trans (word_eq q.val (i 0).val (IntOp.addi 101000#32 (x3 (ix2 b 0))) q.isLt hn (by omega))
  rw [hy2] at w2
  rw [hy3] at w3
  refine bit_toReal _ _ ((ori_bit _ _).trans ?_)
  rw [ori_bit, or_assoc]
  exact or_congr w1 (or_congr w2 w3)

end Pay

variable (m : (ℓ : Loc nD τ sig) → Buf (Elt Ideal) ℓ) (ρ : Dev nD → PrngReg)

/-- The three id vectors as launched, on core `c`. -/
abbrev ids1 (c : Dev nD) : IVec SIds 32 := m ((c.tc : Thread nD τ).loc main_arg1)
abbrev ids2 (c : Dev nD) : IVec SIds 32 := m ((c.tc : Thread nD τ).loc main_arg2)
abbrev ids3 (c : Dev nD) : IVec SIds 32 := m ((c.tc : Thread nD τ).loc main_arg3)

/-! ## The id blocks are the id vectors -/

namespace Pay

/-- Before the region the host reshapes the first id vector to one column. -/
theorem V_v0 (c : Dev nD) : (V m c main_v0 : S1024x1.Idx → BitVec 32)
    = shapeCast S1024x1 (m ((c.tc : Thread nD τ).loc main_arg1)) shapeCasts_S1024_S1024x1 := by
  show StableHlo.after hostOps0 (fun b => m (c, b)) (Proc.devRef .tc main_v0) = _
  after_results; rfl

/-- Window 0's block is its whole array at every point: both block indices are 0. -/
theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- So row `b` of window 0's block, at any point, is entry `b` of the id vector as launched: the block's
    element (`b`, 0) sits at (0·1024 + `b`, 0·1 + 0) of the column, whose row-major position is `b`. -/
theorem iblk0_apply (c : Dev nD) (t : Fin cfg0.N) (b : Fin 1024) :
    (iblk m c 0 t : Vec Ideal S1024x1 .i32) (ix2 b 0) = m ((c.tc : Thread nD τ).loc main_arg1) (ix1 b) := by
  have hi := index0 t
  show (V m c main_v0 : S1024x1.Idx → BitVec 32) ((win0_0.rect t).emb (ix2 b 0)) = _
  refine (congrFun (V_v0 m c) _).trans ?_
  refine shapeCast_apply _ _ _ (ix1 b) ?_
  rw [Shape.rowMajor_val_one, Shape.rowMajor_val_two]
  have e0 := win0_0.rect_emb_val t (ix2 b 0) 0
  have e1 := win0_0.rect_emb_val t (ix2 b 0) 1
  rw [e0, e1, hi.1, hi.2]
  show b.val = (0 * 1024 + b.val) * 1 + (0 * 1 + 0)
  omega

/-- Before the region the host reshapes the second id vector to one column. -/
theorem V_v1 (c : Dev nD) : (V m c main_v1 : S1024x1.Idx → BitVec 32)
    = shapeCast S1024x1 (m ((c.tc : Thread nD τ).loc main_arg2)) shapeCasts_S1024_S1024x1 := by
  show StableHlo.after hostOps0 (fun b => m (c, b)) (Proc.devRef .tc main_v1) = _
  after_results; rfl

/-- Window 1's block is its whole array at every point: both block indices are 0. -/
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- So row `b` of window 1's block, at any point, is entry `b` of the id vector as launched: the block's
    element (`b`, 0) sits at (0·1024 + `b`, 0·1 + 0) of the column, whose row-major position is `b`. -/
theorem iblk1_apply (c : Dev nD) (t : Fin cfg0.N) (b : Fin 1024) :
    (iblk m c 1 t : Vec Ideal S1024x1 .i32) (ix2 b 0) = m ((c.tc : Thread nD τ).loc main_arg2) (ix1 b) := by
  have hi := index1 t
  show (V m c main_v1 : S1024x1.Idx → BitVec 32) ((win0_1.rect t).emb (ix2 b 0)) = _
  refine (congrFun (V_v1 m c) _).trans ?_
  refine shapeCast_apply _ _ _ (ix1 b) ?_
  rw [Shape.rowMajor_val_one, Shape.rowMajor_val_two]
  have e0 := win0_1.rect_emb_val t (ix2 b 0) 0
  have e1 := win0_1.rect_emb_val t (ix2 b 0) 1
  rw [e0, e1, hi.1, hi.2]
  show b.val = (0 * 1024 + b.val) * 1 + (0 * 1 + 0)
  omega

/-- Before the region the host reshapes the third id vector to one column. -/
theorem V_v2 (c : Dev nD) : (V m c main_v2 : S1024x1.Idx → BitVec 32)
    = shapeCast S1024x1 (m ((c.tc : Thread nD τ).loc main_arg3)) shapeCasts_S1024_S1024x1 := by
  show StableHlo.after hostOps0 (fun b => m (c, b)) (Proc.devRef .tc main_v2) = _
  after_results; rfl

/-- Window 2's block is its whole array at every point: both block indices are 0. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- So row `b` of window 2's block, at any point, is entry `b` of the id vector as launched: the block's
    element (`b`, 0) sits at (0·1024 + `b`, 0·1 + 0) of the column, whose row-major position is `b`. -/
theorem iblk2_apply (c : Dev nD) (t : Fin cfg0.N) (b : Fin 1024) :
    (iblk m c 2 t : Vec Ideal S1024x1 .i32) (ix2 b 0) = m ((c.tc : Thread nD τ).loc main_arg3) (ix1 b) := by
  have hi := index2 t
  show (V m c main_v2 : S1024x1.Idx → BitVec 32) ((win0_2.rect t).emb (ix2 b 0)) = _
  refine (congrFun (V_v2 m c) _).trans ?_
  refine shapeCast_apply _ _ _ (ix1 b) ?_
  rw [Shape.rowMajor_val_one, Shape.rowMajor_val_two]
  have e0 := win0_2.rect_emb_val t (ix2 b 0) 0
  have e1 := win0_2.rect_emb_val t (ix2 b 0) 1
  rw [e0, e1, hi.1, hi.2]
  show b.val = (0 * 1024 + b.val) * 1 + (0 * 1 + 0)
  omega

/-- The grid has one axis: point `t`'s coordinate is `t`. -/
theorem coord0 : ∀ t : Fin cfg0.N, ((grid0.coords t) 0).val = t.val :=
  (by decide +kernel : ∀ t : Fin grid0.N, ((grid0.coords t) 0).val = t.val)

end Pay

/-! ## The stored value at an element -/

/-- After the body at point `t`, element (`b`, `q`) of the result's staging buffer is the one-hot value of global
    column `2048·t + q` of row `b`. -/
theorem out3_apply (c : Dev nD) (t : Fin cfg0.N) (hr : InRange (ids1 m c) (ids2 m c) (ids3 m c))
    (b : Fin 1024) (q : Fin 2048) :
    out3 (F := Ideal) m c t (ix2 b q)
      = if Hit (ids1 m c) (ids2 m c) (ids3 m c) b (2048 * t.val + q.val) then (1 : EReal) else 0 := by
  obtain ⟨hb1, hb2, hb3⟩ := hr b
  have hn : t.val < 99 := lt_of_lt_of_eq t.isLt N_0
  have hq := q.isLt
  have e1 : (iblk m c 0 t : Vec Ideal S1024x1 .i32) (ix2 b 0) = ids1 m c (ix1 b) := Pay.iblk0_apply m c t b
  have e2 : (iblk m c 1 t : Vec Ideal S1024x1 .i32) (ix2 b 0) = ids2 m c (ix1 b) := Pay.iblk1_apply m c t b
  have e3 : (iblk m c 2 t : Vec Ideal S1024x1 .i32) (ix2 b 0) = ids3 m c (ix1 b) := Pay.iblk2_apply m c t b
  show _ = if (2048 * t.val + q.val = (ids1 m c (ix1 b)).toNat ∨ 2048 * t.val + q.val = 100000 + (ids2 m c (ix1 b)).toNat
      ∨ 2048 * t.val + q.val = 101000 + (ids3 m c (ix1 b)).toNat) then (1 : EReal) else 0
  by_cases h1 : t.val < 48
  · -- a block inside the head segment: its columns are below 100000, so only the head's column can be met
    rw [out3_head m c t h1]
    refine (Pay.pay3_apply (grid0.coords t) t.val (Pay.coord0 t) hn (iblk m c 0 t) b q (by rw [e1]; exact hb1)).trans ?_
    rw [e1]
    refine if_congr ?_ rfl rfl
    omega
  · by_cases h2 : 50 ≤ t.val
    · -- a block inside the tail segment: its columns are at least 102400, above every head and relation column
      rw [out3_tail m c t h2]
      refine (Pay.pay4_apply (grid0.coords t) t.val (Pay.coord0 t) hn (iblk m c 2 t) b q (by rw [e3]; exact hb3)).trans ?_
      rw [e3]
      refine if_congr ?_ rfl rfl
      omega
    · -- the two blocks that straddle the segment boundaries compare with all three columns
      rw [out3_mid m c t (by omega) (by omega)]
      refine (Pay.pay5_apply (grid0.coords t) t.val (Pay.coord0 t) hn (iblk m c 0 t) (iblk m c 1 t) (iblk m c 2 t) b q
        (by rw [e1]; exact hb1) (by rw [e2]; exact hb2) (by rw [e3]; exact hb3)).trans ?_
      rw [e1, e2, e3]

end Cert.KernelIdeal.Body

end
-- ==== Proof.KIFinal.lean ====
/-
  From blocks to the array: point `t` writes back columns `2048·t` … of the result, the last block cut at the
  array's width 201000; every column lies in the block numbered by its quotient by 2048, and what each point writes
  back is that block of the one-hot function. So after the last point the result array is the one-hot function.
-/
import proofs.«412208_j44203803411098_3_alg».proof.Proof.KIPay

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.OneHot

variable (m : (ℓ : Loc nD τ sig) → Buf (Elt Ideal) ℓ) (ρ : Dev nD → PrngReg)

/-! ## The result window's blocks, decided over the grid -/

/-- At every point the result's block sits at block row 0 and block column `t`; the part of it inside the array is
    all 1024 rows and, of the 2048 columns, all of them except at the last point, where only the 296 columns
    200704 … 200999 remain before the array's width 201000. -/
theorem idx_facts3 : ∀ t : Fin cfg0.N, win0_3.index t (0 : Fin 2) = 0 ∧ win0_3.index t (1 : Fin 2) = t.val
    ∧ win0_3.xsize (grid0.coords t) (0 : Fin 2) = 1024
    ∧ win0_3.xsize (grid0.coords t) (1 : Fin 2) = if t.val = 98 then 296 else 2048 :=
  (by decide +kernel : ∀ t : Fin grid0.N, win0_3.index t (0 : Fin 2) = 0 ∧ win0_3.index t (1 : Fin 2) = t.val
    ∧ win0_3.xsize (grid0.coords t) (0 : Fin 2) = 1024
    ∧ win0_3.xsize (grid0.coords t) (1 : Fin 2) = if t.val = 98 then 296 else 2048)

/-! ## What each point writes back -/

/-- What point `t` writes back is block `t` of the one-hot function: the element at local row `y 0`, local column
    `y 1` of the block's part inside the array is the staging buffer's element there, which is the one-hot value of
    row `y 0` and global column `2048·t + y 1`; and that is where the block's element sits in the array (row offset
    `0·1024`, column offset `t·2048`). -/
theorem flushed3_eq (c : Dev nD) (hr : InRange (ids1 m c) (ids2 m c) (ids3 m c)) (t : Fin cfg0.N) :
    (dats (F := Ideal) m 0 c).flushed 3 t
      = ((cfg0.win 3).blk t).view.read (Elt Ideal) (oneHot (ids1 m c) (ids2 m c) (ids3 m c)) := by
  show (cfg0.win 3).cut (grid0.coords t) ((dats m 0 c).after 3 t) = _
  rw [after0_3]
  funext y
  rw [View.read_apply]
  obtain ⟨e0, e1, x0, x1⟩ := idx_facts3 t
  have ht : t.val < 99 := t.isLt
  have hy0 : (y 0).val < win0_3.xsize (grid0.coords t) (0 : Fin 2) := (y 0).isLt
  have hy1 : (y 1).val < win0_3.xsize (grid0.coords t) (1 : Fin 2) := (y 1).isLt
  rw [x0] at hy0
  rw [x1] at hy1
  -- the local column is below the block's width, and the global column below the array's: at the last point
  -- 2048·98 + 296 = 201000, before it 2048·(t + 1) ≤ 2048·98 < 201000
  have hq : (y 1).val < 2048 := by split at hy1 <;> omega
  have hcol : 2048 * t.val + (y 1).val < 201000 := by split at hy1 <;> omega
  -- the element's index in the full 1024 × 2048 block, by coordinates
  have hL : win0_3.xinj (grid0.coords t) y = ix2 (⟨(y 0).val, hy0⟩ : Fin 1024) (⟨(y 1).val, hq⟩ : Fin 2048) := by
    funext a
    match a with
    | ⟨0, _⟩ => rfl
    | ⟨1, _⟩ => rfl
  -- the element's index in the array, by coordinates: block index times block size plus the local coordinate
  have hR : ((cfg0.win 3).blk t).view.emb y
      = ix2 (⟨(y 0).val, hy0⟩ : Fin 1024) (⟨2048 * t.val + (y 1).val, hcol⟩ : Fin 201000) := by
    funext a
    apply Fin.ext
    match a with
    | ⟨0, _⟩ =>
      show win0_3.index t (0 : Fin 2) * 1024 + 1 * (y 0).val = (y 0).val
      rw [e0]; omega
    | ⟨1, _⟩ =>
      show win0_3.index t (1 : Fin 2) * 2048 + 1 * (y 1).val = 2048 * t.val + (y 1).val
      rw [e1]; omega
  show out3 m c t (win0_3.xinj (grid0.coords t) y)
    = oneHot (ids1 m c) (ids2 m c) (ids3 m c) (((cfg0.win 3).blk t).view.emb y)
  rw [hL, hR, out3_apply m c t hr, oneHot_apply]

/-! ## The blocks cover the array -/

/-- An index of the array is in point `t`'s block iff on each axis its coordinate lies from the block's offset up to
    the offset plus the extent of the block's part inside the array. -/
theorem mem_blk3 (t : Fin cfg0.N) (i : S1024x201000.Idx) :
    i ∈ ((cfg0.win 3).blk t).view.set ↔ ∀ a : Fin 2, win0_3.index t a * S1024x2048.size a ≤ (i a).val
      ∧ (i a).val < win0_3.index t a * S1024x2048.size a + win0_3.xsize (grid0.coords t) a := by
  show i ∈ ((View.whole main_v3).slice (win0_3.rect t)).set ↔ _
  rw [View.set_slice_whole, Rect.mem_set_unit]
  exact Iff.rfl

/-- Every index of the array lies in the block numbered by its column's quotient by 2048: that quotient is below 99
    because the column is below 201000 = 2048·98 + 296; the row is among the block's 1024 rows; the column is at or
    after `2048·(col / 2048)` and before the next multiple of 2048, and in the last block (quotient 98) before
    `2048·98 + 296 = 201000`, the array's width. Every point writes its block back. -/
theorem cover3 (i : S1024x201000.Idx) :
    ∃ t : Fin cfg0.N, (cfg0.win 3).flush t = true ∧ i ∈ ((cfg0.win 3).blk t).view.set := by
  have hi0 : (i 0).val < 1024 := (i 0).isLt
  have hi1 : (i 1).val < 201000 := (i 1).isLt
  have htl : (i 1).val / 2048 < 99 := by omega
  refine ⟨(⟨(i 1).val / 2048, htl⟩ : Fin cfg0.N), flush0_3 _, ?_⟩
  rw [mem_blk3]
  obtain ⟨e0, e1, x0, x1⟩ := idx_facts3 (⟨(i 1).val / 2048, htl⟩ : Fin cfg0.N)
  intro a
  match a with
  | ⟨0, _⟩ =>
    show win0_3.index _ (0 : Fin 2) * 1024 ≤ (i 0).val
      ∧ (i 0).val < win0_3.index _ (0 : Fin 2) * 1024 + win0_3.xsize _ (0 : Fin 2)
    rw [e0, x0]; omega
  | ⟨1, _⟩ =>
    show win0_3.index _ (1 : Fin 2) * 2048 ≤ (i 1).val
      ∧ (i 1).val < win0_3.index _ (1 : Fin 2) * 2048 + win0_3.xsize _ (1 : Fin 2)
    rw [e1, x1]
    show (i 1).val / 2048 * 2048 ≤ (i 1).val
      ∧ (i 1).val < (i 1).val / 2048 * 2048 + (if (i 1).val / 2048 = 98 then 296 else 2048)
    split <;> omega

/-! ## The array after the run -/

/-- After the run, the result array holds the one-hot function of the ids as launched (ids in range). -/
theorem final3 (c : Dev nD) (hr : InRange (ids1 m c) (ids2 m c) (ids3 m c)) :
    (dats (F := Ideal) m 0 c).arrAt 3 cfg0.N = oneHot (ids1 m c) (ids2 m c) (ids3 m c) := by
  -- every point writes back its block of the one-hot function, and the blocks cover the array
  exact (dats (F := Ideal) m 0 c).arrAt_eq_of_cover 3 (oneHot (ids1 m c) (ids2 m c) (ids3 m c))
    (fun t _ => flushed3_eq m c hr t) cover3

end Cert.KernelIdeal.Body

end
-- ==== Proof.LibScatterSet.lean ====
/-
  A scatter that SETS one constant: `stablehlo.scatter` whose body returns the update, with every update the same
  value `v`. The model folds the updates in row-major order, each replacing the element its index lands on and
  dropped when the index is outside the operand; with all updates equal the order does not matter, and an element of
  the result is `v` exactly when SOME update lands on it, and the operand's element otherwise.
-/
import Idealize.ShloMosaic.PureOps

namespace Cert.Lib

open Idealize.ShloMosaic

/-- One step of the fold: the update numbered `n` replaces the element its index lands on by `v`, and is dropped
    when its index is outside the operand. -/
private theorem step_apply {α : Type} {s si u : Shape} {w : Nat} (d : ScatterDims s si u)
    (idx : IVec si w) (v : α) (n : Fin u.numel) (r : s.Idx → α) (i : s.Idx) :
    (match d.resultIdx? (u.rowMajor.symm n) idx with
      | some i₀ => fun i' => if i' = i₀ then (fun (_ b : α) => b) (r i₀) ((fun _ => v) (u.rowMajor.symm n)) else r i'
      | none => r) i
      = if d.resultIdx? (u.rowMajor.symm n) idx = some i then v else r i := by
  cases h : d.resultIdx? (u.rowMajor.symm n) idx with
  | none => simp
  | some i₀ =>
    by_cases hi : i = i₀
    · subst hi; simp
    · have : ¬ (some i₀ = some i) := fun e => hi (Option.some.inj e).symm
      simp [hi, this]

/-- The fold over any list of update numbers: an element is `v` when the index of some update in the list lands
    on it, and the starting array's element otherwise. -/
private theorem foldl_set_const {α : Type} {s si u : Shape} {w : Nat} (d : ScatterDims s si u)
    (idx : IVec si w) (v : α) (i : s.Idx) (l : List (Fin u.numel)) :
    ∀ x : s.Idx → α,
    (l.foldl (fun r n =>
      match d.resultIdx? (u.rowMajor.symm n) idx with
      | some i₀ => fun i' => if i' = i₀ then (fun (_ b : α) => b) (r i₀) ((fun _ => v) (u.rowMajor.symm n)) else r i'
      | none => r) x) i
    = (open Classical in if ∃ n ∈ l, d.resultIdx? (u.rowMajor.symm n) idx = some i then v else x i) := by
  induction l with
  | nil => intro x; simp
  | cons n l ih =>
    intro x
    rw [List.foldl_cons, ih, step_apply]
    by_cases h1 : ∃ m ∈ l, d.resultIdx? (u.rowMajor.symm m) idx = some i
    · have h2 : ∃ m ∈ n :: l, d.resultIdx? (u.rowMajor.symm m) idx = some i := by
        obtain ⟨m, hm, e⟩ := h1; exact ⟨m, List.mem_cons_of_mem _ hm, e⟩
      rw [if_pos h1, if_pos h2]
    · rw [if_neg h1]
      by_cases h0 : d.resultIdx? (u.rowMajor.symm n) idx = some i
      · have h2 : ∃ m ∈ n :: l, d.resultIdx? (u.rowMajor.symm m) idx = some i := ⟨n, List.mem_cons_self .., h0⟩
        rw [if_pos h0, if_pos h2]
      · have h2 : ¬ ∃ m ∈ n :: l, d.resultIdx? (u.rowMajor.symm m) idx = some i := by
          rintro ⟨m, hm, e⟩
          rcases List.mem_cons.1 hm with rfl | hm
          · exact h0 e
          · exact h1 ⟨m, hm, e⟩
        rw [if_neg h0, if_neg h2]

/-- An element of a set-scatter of the constant `v` is `v` when some update index lands on it, else the operand's. -/
theorem scatter_set_const {α : Type} {s si u : Shape} {w : Nat} (d : ScatterDims s si u) (x : s.Idx → α)
    (idx : IVec si w) (v : α) (i : s.Idx) [Decidable (∃ j : u.Idx, d.resultIdx? j idx = some i)] :
    Host.scatter d (fun _ b => b) x idx (fun _ => v) i
      = if ∃ j : u.Idx, d.resultIdx? j idx = some i then v else x i := by
  refine (foldl_set_const d idx v i (List.finRange u.numel) x).trans ?_
  -- every update index is the one numbered by its row-major position
  by_cases h : ∃ j : u.Idx, d.resultIdx? j idx = some i
  · have h' : ∃ n ∈ List.finRange u.numel, d.resultIdx? (u.rowMajor.symm n) idx = some i := by
      obtain ⟨j, e⟩ := h
      exact ⟨u.rowMajor j, List.mem_finRange _, by rw [Equiv.symm_apply_apply]; exact e⟩
    rw [if_pos h, if_pos h']
  · have h' : ¬ ∃ n ∈ List.finRange u.numel, d.resultIdx? (u.rowMajor.symm n) idx = some i := by
      rintro ⟨n, _, e⟩; exact h ⟨_, e⟩
    rw [if_neg h, if_neg h']

end Cert.Lib
-- ==== Proof.RefValue.lean ====
/-
  The reference: three column indices per row (the head id, 100000 + the relation id, 101000 + the tail id), each
  wrapped by the array's width when negative, paired with the row number and scattered as ones into a zero array.
  On ids inside their label ranges no index is negative or outside the array, so the result is the three-segment
  one-hot function.
-/
import proofs.«412208_j44203803411098_3_alg».proof.Proof.Gen.ReferenceIdeal.Read
import proofs.«412208_j44203803411098_3_alg».proof.Proof.Spec
import proofs.«412208_j44203803411098_3_alg».proof.Proof.LibScatterSet
import Idealize.ShloMosaic.Lib.IdealHost
import Idealize.ShloMosaic.Lib.StableHlo.Predicate

noncomputable section

namespace Cert.ReferenceIdeal.RefValue

open Cert.ReferenceIdeal Cert.ReferenceIdeal.Gen Idealize.ShloMosaic Idealize.ShloMosaic.ValueIdx Cert.OneHot
open Cert.ReferenceIdeal.Read
open Idealize.ShloMosaic.StableHlo.Predicate (slt_iff_toNat toInt_eq_toNat_of_lt toInt_ofNat_small)

/-- The row number as a word: the iota wrapped when negative, which it never is. -/
theorem row_apply (i : S1024x1.Idx) : val_main_v15 (F := Ideal) i = BitVec.ofNat 32 (i 0).val := by
  rw [val_main_v15_apply, val_main_v12_apply, val_main_v10_apply, val_main_v11_apply, val_main_c_1_apply, val_main_v0_apply]
  have h : ¬ IntOp.cmpi .slt (BitVec.ofNat 32 ((idx_main_v10 i) 0).val) 0#32 = 1#1 := by
    rw [slt_iff_toNat]
    · simp
    · have := idx2_lt0 i
      simp [BitVec.toNat_ofNat]
      omega
    · simp
  rw [eq_zero_of_ne_one h, select_zero]

/-- The index of row `b` in a one-column array reads the id vectors at `b`. -/
theorem idx_col (b : Fin 1024) : idx_main_v5 (ix2 b (0 : Fin 1)) = ix1 b := by
  funext a; match a with | ⟨0, _⟩ => rfl

/-- Column 0 of the joined array is the head id. -/
theorem cols_apply0 (x1 x2 x3 : IVec SIds 32) (b : Fin 1024) :
    val_main_v8 (F := Ideal) x1 x2 x3 (ix2 b (0 : Fin 3)) = x1 (ix1 b) := by
  unfold val_main_v8
  refine Eq.trans (concatenate_apply_piece _ _ _ (ix2 b (0 : Fin 3))
    0 (by simp) S1024x1 (val_main_v5 (F := Ideal) x1) rfl rfl 0 rfl (ix2 b (0 : Fin 1))
    (fun c hc => by
      match c with
      | ⟨0, _⟩ => rfl
      | ⟨1, _⟩ => exact absurd rfl hc) rfl) ?_
  rw [val_main_v5_apply, idx_col]

/-- Column 1 of the joined array is 100000 plus the relation id. -/
theorem cols_apply1 (x1 x2 x3 : IVec SIds 32) (b : Fin 1024) :
    val_main_v8 (F := Ideal) x1 x2 x3 (ix2 b (1 : Fin 3)) = 100000#32 + x2 (ix1 b) := by
  unfold val_main_v8
  refine Eq.trans (concatenate_apply_piece _ _ _ (ix2 b (1 : Fin 3))
    1 (by simp) S1024x1 (val_main_v6 (F := Ideal) x2) rfl rfl 1 rfl (ix2 b (0 : Fin 1))
    (fun c hc => by
      match c with
      | ⟨0, _⟩ => rfl
      | ⟨1, _⟩ => exact absurd rfl hc) rfl) ?_
  rw [val_main_v6_apply, val_main_v2_apply, val_main_v1_apply, val_main_c_apply]
  show IntOp.addi 100000#32 (x2 (idx_main_v5 (ix2 b (0 : Fin 1)))) = _
  rw [idx_col]; rfl

/-- Column 2 of the joined array is 101000 plus the tail id. -/
theorem cols_apply2 (x1 x2 x3 : IVec SIds 32) (b : Fin 1024) :
    val_main_v8 (F := Ideal) x1 x2 x3 (ix2 b (2 : Fin 3)) = 101000#32 + x3 (ix1 b) := by
  unfold val_main_v8
  refine Eq.trans (concatenate_apply_piece _ _ _ (ix2 b (2 : Fin 3))
    2 (by simp) S1024x1 (val_main_v7 (F := Ideal) x3) rfl rfl 2 rfl (ix2 b (0 : Fin 1))
    (fun c hc => by
      match c with
      | ⟨0, _⟩ => rfl
      | ⟨1, _⟩ => exact absurd rfl hc) rfl) ?_
  rw [val_main_v7_apply, val_main_v4_apply, val_main_v3_apply, val_main_c_0_apply]
  show IntOp.addi 101000#32 (x3 (idx_main_v5 (ix2 b (0 : Fin 1)))) = _
  rw [idx_col]; rfl

/-- The scatter's dimension numbers: both operand axes inserted, the index vector on the last axis of the indices. -/
abbrev refScatter := scatter_S1024x201000_S1024x3x2_S1024x3_n_01_01_2

/-- Update `(b, k)` reads component `c` of its start index at `(b, k, c)`. -/
theorem siIdx_eq (b : Fin 1024) (k : Fin 3) (c : Fin 2) (hc : c.val < refScatter.scatterDimsToOperandDims.length) :
    refScatter.siIdx (ix2 b k) ⟨c.val, hc⟩ = ix3 b k c := by
  funext a
  match a with
  | ⟨0, _⟩ => rfl
  | ⟨1, _⟩ => rfl
  | ⟨2, _⟩ => rfl

/-- The start on the row axis is the first index component, read signed. -/
theorem start0 (idx : IVec S1024x3x2 32) (b : Fin 1024) (k : Fin 3) :
    refScatter.start (ix2 b k) idx (0 : Fin 2) = (idx (ix3 b k (0 : Fin 2))).toInt := by
  unfold ScatterDims.start
  split
  · next ha => exact congrArg (fun t => (idx t).toInt) (siIdx_eq b k 0 _)
  · next ha => exact absurd (by show (0 : Fin 2) ∈ [0, 1]; decide) ha

/-- The start on the column axis is the second index component, read signed. -/
theorem start1 (idx : IVec S1024x3x2 32) (b : Fin 1024) (k : Fin 3) :
    refScatter.start (ix2 b k) idx (1 : Fin 2) = (idx (ix3 b k (1 : Fin 2))).toInt := by
  unfold ScatterDims.start
  split
  · next ha => exact congrArg (fun t => (idx t).toInt) (siIdx_eq b k 1 _)
  · next ha => exact absurd (by show (1 : Fin 2) ∈ [0, 1]; decide) ha

/-- Both operand axes are inserted, so the window coordinate is zero on each. -/
theorem window_zero (j : S1024x3.Idx) (a : Fin 2) : refScatter.window j a = 0 := by
  unfold ScatterDims.window
  split
  · next ha => exact absurd ha (by show a ∉ ([] : List (Fin 2)); exact List.not_mem_nil)
  · rfl

/-- An update whose two index components read, signed, a row below 1024 and a column below 201000 lands there. -/
theorem resultIdx_eq (idx : IVec S1024x3x2 32) (b : Fin 1024) (k : Fin 3) (r : Fin 1024) (c : Fin 201000)
    (h0 : (idx (ix3 b k (0 : Fin 2))).toInt = r.val) (h1 : (idx (ix3 b k (1 : Fin 2))).toInt = c.val) :
    refScatter.resultIdx? (ix2 b k) idx = some (ix2 r c) := by
  unfold ScatterDims.resultIdx?
  have H : ∀ a : Fin 2, 0 ≤ refScatter.start (ix2 b k) idx a + refScatter.window (ix2 b k) a
      ∧ refScatter.start (ix2 b k) idx a + refScatter.window (ix2 b k) a < S1024x201000.size a := by
    intro a
    match a with
    | ⟨0, _⟩ =>
      have := r.isLt
      rw [show (⟨0, by decide⟩ : Fin 2) = 0 from rfl, start0, window_zero, h0]
      show (0 : Int) ≤ r.val + (0 : Nat) ∧ (r.val : Int) + (0 : Nat) < ((1024 : Nat) : Int)
      omega
    | ⟨1, _⟩ =>
      have := c.isLt
      rw [show (⟨1, by decide⟩ : Fin 2) = 1 from rfl, start1, window_zero, h1]
      show (0 : Int) ≤ c.val + (0 : Nat) ∧ (c.val : Int) + (0 : Nat) < ((201000 : Nat) : Int)
      omega
  rw [dif_pos H]
  congr 1
  funext a
  apply Fin.ext
  match a with
  | ⟨0, _⟩ =>
    show (refScatter.start (ix2 b k) idx 0 + refScatter.window (ix2 b k) 0).toNat = r.val
    rw [start0, window_zero, h0]; omega
  | ⟨1, _⟩ =>
    show (refScatter.start (ix2 b k) idx 1 + refScatter.window (ix2 b k) 1).toNat = c.val
    rw [start1, window_zero, h1]; omega

/-- The index table's first component at update `(b, k)` is the row number `b` as a word. -/
theorem idx_row (x1 x2 x3 : IVec SIds 32) (b : Fin 1024) (k : Fin 3) :
    val_main_v24 (F := Ideal) x1 x2 x3 (ix3 b k (0 : Fin 2)) = BitVec.ofNat 32 b.val := by
  unfold val_main_v24
  refine Eq.trans (concatenate_pair_apply_left (t := S1024x3x2) (s₁ := S1024x3x1) (s₂ := S1024x3x1) 2 _ _
    concatenates_S1024x3x1_S1024x3x1_S1024x3x2_d2 (ix3 b k (0 : Fin 2)) rfl (ix3 b k (0 : Fin 1))
    (fun c => by
      match c with
      | ⟨0, _⟩ => rfl
      | ⟨1, _⟩ => rfl
      | ⟨2, _⟩ => rfl)) ?_
  rw [val_main_v22_apply, val_main_v21_apply, row_apply]

/-- A column word below 2³¹ is not negative as a signed word, so the wrap leaves it as it is. -/
theorem wrap_id (c : BitVec 32) (hc : c.toNat < 2 ^ 31) :
    Scalar.select (IntOp.cmpi .slt c 0#32) (IntOp.addi c 201000#32) c = c := by
  have h : ¬ IntOp.cmpi .slt c 0#32 = 1#1 := by
    rw [slt_iff_toNat hc (by simp)]; simp
  rw [eq_zero_of_ne_one h, select_zero]

/-- The index table's second component at update `(b, k)` is the wrapped column word of `(b, k)`. -/
theorem idx_colw (x1 x2 x3 : IVec SIds 32) (b : Fin 1024) (k : Fin 3) :
    val_main_v24 (F := Ideal) x1 x2 x3 (ix3 b k (1 : Fin 2)) = val_main_v20 (F := Ideal) x1 x2 x3 (ix2 b k) := by
  unfold val_main_v24
  refine Eq.trans (concatenate_pair_apply_right (t := S1024x3x2) (s₁ := S1024x3x1) (s₂ := S1024x3x1) 2 _ _
    concatenates_S1024x3x1_S1024x3x1_S1024x3x2_d2 (ix3 b k (1 : Fin 2)) rfl rfl (ix3 b k (0 : Fin 1))
    (fun c hc => by
      match c with
      | ⟨0, _⟩ => rfl
      | ⟨1, _⟩ => rfl
      | ⟨2, _⟩ => exact absurd rfl hc) rfl) ?_
  rw [val_main_v23_apply]
  congr 1
  funext a
  match a with
  | ⟨0, _⟩ => rfl
  | ⟨1, _⟩ => rfl

/-- The wrapped column word is the column word when that is below 2³¹. -/
theorem v20_eq (x1 x2 x3 : IVec SIds 32) (i : S1024x3.Idx) (hc : (val_main_v8 (F := Ideal) x1 x2 x3 i).toNat < 2 ^ 31) :
    val_main_v20 (F := Ideal) x1 x2 x3 i = val_main_v8 (F := Ideal) x1 x2 x3 i := by
  rw [val_main_v20_apply, val_main_v17_apply, val_main_v19_apply, val_main_v16_apply, val_main_c_3_apply,
    val_main_v18_apply, val_main_c_4_apply]
  exact wrap_id _ hc

/-- The column word of update `(b, 0)` has the head's target column as its value. -/
theorem col_toNat0 (x1 x2 x3 : IVec SIds 32) (b : Fin 1024) :
    (val_main_v8 (F := Ideal) x1 x2 x3 (ix2 b (0 : Fin 3))).toNat = colH x1 b := by
  rw [cols_apply0]; rfl

/-- On ids in range 100000 plus the relation id does not wrap: the column word of update `(b, 1)` has the
    relation's target column as its value. -/
theorem col_toNat1 (x1 x2 x3 : IVec SIds 32) (hr : InRange x1 x2 x3) (b : Fin 1024) :
    (val_main_v8 (F := Ideal) x1 x2 x3 (ix2 b (1 : Fin 3))).toNat = colR x2 b := by
  have h := (hr b).2.1
  rw [cols_apply1, BitVec.toNat_add]
  unfold colR
  simp only [BitVec.toNat_ofNat]
  omega

/-- On ids in range 101000 plus the tail id does not wrap: the column word of update `(b, 2)` has the tail's
    target column as its value. -/
theorem col_toNat2 (x1 x2 x3 : IVec SIds 32) (hr : InRange x1 x2 x3) (b : Fin 1024) :
    (val_main_v8 (F := Ideal) x1 x2 x3 (ix2 b (2 : Fin 3))).toNat = colT x3 b := by
  have h := (hr b).2.2
  rw [cols_apply2, BitVec.toNat_add]
  unfold colT
  simp only [BitVec.toNat_ofNat]
  omega

/-- On ids in range the column word of update `(b, k)` has a value below 201000 that is one of row `b`'s three
    target columns. -/
theorem col_cases (x1 x2 x3 : IVec SIds 32) (hr : InRange x1 x2 x3) (b : Fin 1024) (k : Fin 3) :
    ∃ c : Nat, c < 201000 ∧ (val_main_v8 (F := Ideal) x1 x2 x3 (ix2 b k)).toNat = c
      ∧ (c = colH x1 b ∨ c = colR x2 b ∨ c = colT x3 b) := by
  have h := hr b
  match k with
  | ⟨0, _⟩ => exact ⟨colH x1 b, by unfold colH; omega, col_toNat0 x1 x2 x3 b, Or.inl rfl⟩
  | ⟨1, _⟩ => exact ⟨colR x2 b, by unfold colR; omega, col_toNat1 x1 x2 x3 hr b, Or.inr (Or.inl rfl)⟩
  | ⟨2, _⟩ => exact ⟨colT x3 b, by unfold colT; omega, col_toNat2 x1 x2 x3 hr b, Or.inr (Or.inr rfl)⟩

/-- Update `(b, k)` lands on row `b`, at its column word's value, when that is below 201000. -/
theorem land (x1 x2 x3 : IVec SIds 32) (b : Fin 1024) (k : Fin 3) (c : Nat) (hc : c < 201000)
    (hv : (val_main_v8 (F := Ideal) x1 x2 x3 (ix2 b k)).toNat = c) :
    refScatter.resultIdx? (ix2 b k) (val_main_v24 (F := Ideal) x1 x2 x3) = some (ix2 b ⟨c, hc⟩) := by
  apply resultIdx_eq
  · rw [idx_row]; exact toInt_ofNat_small _ (by have := b.isLt; omega)
  · rw [idx_colw, v20_eq _ _ _ _ (by omega), toInt_eq_toNat_of_lt (by omega), hv]

/-- Some update lands on `(b, c)` exactly when `c` is one of row `b`'s three target columns. -/
theorem exists_iff (x1 x2 x3 : IVec SIds 32) (hr : InRange x1 x2 x3) (b : Fin 1024) (c : Fin 201000) :
    (∃ j : S1024x3.Idx, refScatter.resultIdx? j (val_main_v24 (F := Ideal) x1 x2 x3) = some (ix2 b c)) ↔ Hit x1 x2 x3 b c.val := by
  constructor
  · rintro ⟨j, hj⟩
    obtain ⟨b', k, rfl⟩ : ∃ (b' : Fin 1024) (k : Fin 3), j = ix2 b' k := ⟨j 0, j 1, eq_ix2 j⟩
    obtain ⟨c', hc', hv, hor⟩ := col_cases x1 x2 x3 hr b' k
    rw [land x1 x2 x3 b' k c' hc' hv] at hj
    have e := Option.some.inj hj
    have e0 : b' = b := congrFun e 0
    have e1 : c' = c.val := congrArg Fin.val (congrFun e 1)
    subst e0
    rw [← e1]
    exact hor
  · intro h
    have hb := hr b
    rcases h with h | h | h
    · exact ⟨ix2 b (0 : Fin 3), land x1 x2 x3 b 0 c.val c.isLt (by rw [col_toNat0]; exact h.symm)⟩
    · exact ⟨ix2 b (1 : Fin 3), land x1 x2 x3 b 1 c.val c.isLt (by rw [col_toNat1 x1 x2 x3 hr]; exact h.symm)⟩
    · exact ⟨ix2 b (2 : Fin 3), land x1 x2 x3 b 2 c.val c.isLt (by rw [col_toNat2 x1 x2 x3 hr]; exact h.symm)⟩

/-- The reference's result, as a function of the three id vectors, is the one-hot function on ids in range. -/
theorem ref_eq (x1 x2 x3 : IVec SIds 32) (hr : InRange x1 x2 x3) :
    Cert.ReferenceIdeal.Read.val_main_v26 (F := Ideal) x1 x2 x3 = oneHot x1 x2 x3 := by
  funext i
  obtain ⟨b, c, rfl⟩ : ∃ (b : Fin 1024) (c : Fin 201000), i = ix2 b c := ⟨i 0, i 1, eq_ix2 i⟩
  rw [oneHot_apply]
  have hv25 : val_main_v25 (F := Ideal) = fun _ => (1 : EReal) := by
    funext j
    rw [val_main_v25_apply, val_main_cst_5_apply]
    exact Ideal.ofBits_one_f32
  unfold val_main_v26
  rw [hv25]
  classical
  rw [Cert.Lib.scatter_set_const]
  by_cases h : Hit x1 x2 x3 b c.val
  · rw [if_pos h, if_pos ((exists_iff x1 x2 x3 hr b c).2 h)]
  · rw [if_neg h, if_neg (mt (exists_iff x1 x2 x3 hr b c).1 h), val_main_v9_apply, val_main_cst_apply]
    exact Ideal.ofBits_zero_f32

end Cert.ReferenceIdeal.RefValue

end
-- ==== Proof.PreRange.lean ====
/-
  The precondition, read back: besides the finiteness of the float input it states, id vector by id vector, that every
  entry is at least 0 and below its bound as a SIGNED word; such a word is its unsigned value, below the bound.
-/
import proofs.«412208_j44203803411098_3_alg».proof.Pre_finite_inputs
import proofs.«412208_j44203803411098_3_alg».proof.Proof.Spec
import Idealize.ShloMosaic.Lib.ReduceAll
import Idealize.ShloMosaic.Lib.StableHlo.Predicate

noncomputable section

namespace Cert.OneHot

open Idealize.ShloMosaic Idealize.ShloMosaic.ValueIdx

/-- The rank-0 shape has a single index. -/
instance : Subsingleton Cert.Pre_finite_inputs.S_.Idx := ⟨fun a b => funext fun d => d.elim0⟩

/-- A signed 32-bit word that is at least 0 and below a bound `n < 2³¹` is, read unsigned, below `n`:
    being at least 0 its top bit is clear, so its signed and unsigned readings agree. -/
theorem toNat_lt_of_signed_range {x : BitVec 32} (n : Nat) (hn : n < 2 ^ 31)
    (h0 : IntOp.cmpi .sge x 0#32 = 1#1) (h1 : IntOp.cmpi .slt x (BitVec.ofNat 32 n) = 1#1) : x.toNat < n := by
  rw [IntOp.cmpi_sge, show (0#32 : BitVec 32).toInt = 0 from by decide, BitVec.toInt_pos_iff] at h0
  rw [IntOp.cmpi_slt, StableHlo.Predicate.toInt_ofNat_small n hn,
    StableHlo.Predicate.toInt_eq_toNat_of_lt (by omega)] at h1
  exact_mod_cast h1

/-- An id vector all of whose entries test at least 0 and below `n < 2³¹` as signed words (the two "all"
    reductions of the comparisons against the broadcast constants are 1) has every entry, read unsigned, below `n`. -/
theorem toNat_lt_of_all [Cert.Pre_finite_inputs.Facts] (v : IVec Cert.Pre_finite_inputs.S1024 32) (n : Nat)
    (hn : n < 2 ^ 31)
    (h0 : Host.reduce IntOp.andi
        (cmpi CmpIPredicate.sge v (broadcastInDim Cert.Pre_finite_inputs.S1024 ![]
          Cert.Pre_finite_inputs.Facts.bcast_S_S1024 (constantI Cert.Pre_finite_inputs.S_ 32 0#32)))
        (constantI Cert.Pre_finite_inputs.S_ 1 1#1) Cert.Pre_finite_inputs.Facts.reducesTo_S1024_S_d0
        Cert.Pre_finite_inputs.Facts.h_S_ ix0 = 1#1)
    (h1 : Host.reduce IntOp.andi
        (cmpi CmpIPredicate.slt v (broadcastInDim Cert.Pre_finite_inputs.S1024 ![]
          Cert.Pre_finite_inputs.Facts.bcast_S_S1024 (constantI Cert.Pre_finite_inputs.S_ 32 (BitVec.ofNat 32 n))))
        (constantI Cert.Pre_finite_inputs.S_ 1 1#1) Cert.Pre_finite_inputs.Facts.reducesTo_S1024_S_d0
        Cert.Pre_finite_inputs.Facts.h_S_ ix0 = 1#1)
    (i : Cert.Pre_finite_inputs.S1024.Idx) : (v i).toNat < n :=
  toNat_lt_of_signed_range n hn (Host.reduce_andi_all _ _ _ _ ix0 h0 i) (Host.reduce_andi_all _ _ _ _ ix0 h1 i)

/-- Where the printed precondition is all ones, the three id vectors are inside their label ranges. -/
theorem inRange_of_pre {F : FTy → Type} [FloatOps F] [Cert.Pre_finite_inputs.Facts]
    (z : FVec F Cert.Pre_finite_inputs.S1024x128 .f32) (h r t : IVec SIds 32)
    (hp : Cert.Pre_finite_inputs.fn (F := F) z h r t = fun _ => 1#1) : InRange h r t := by
  have h0 := congrFun hp ValueIdx.ix0
  dsimp only [Cert.Pre_finite_inputs.fn, Cert.Pre_finite_inputs.fn_part1] at h0
  -- the precondition is a conjunction of seven conjuncts: the float one, then (≥ 0, < bound) for h, r and t
  obtain ⟨h0, ht1⟩ := IntOp.andi_eq_one.1 h0
  obtain ⟨h0, ht0⟩ := IntOp.andi_eq_one.1 h0
  obtain ⟨h0, hr1⟩ := IntOp.andi_eq_one.1 h0
  obtain ⟨h0, hr0⟩ := IntOp.andi_eq_one.1 h0
  obtain ⟨h0, hh1⟩ := IntOp.andi_eq_one.1 h0
  obtain ⟨-, hh0⟩ := IntOp.andi_eq_one.1 h0
  intro b
  exact ⟨toNat_lt_of_all h 100000 (by norm_num) hh0 hh1 (ix1 b),
    toNat_lt_of_all r 1000 (by norm_num) hr0 hr1 (ix1 b),
    toNat_lt_of_all t 100000 (by norm_num) ht0 ht1 (ix1 b)⟩

end Cert.OneHot

end
-- ==== Proof.lean ====
/-
  A kernel that builds, row by row, the concatenation of three one-hot rows (head id among 100000 entities, relation
  id among 1000 relations, tail id among 100000 entities) block by block over 99 blocks of 2048 columns, against a
  reference that scatters three ones per row into a zero array. Inside the label ranges (the precondition) the three
  target columns of a row lie in three disjoint segments, so a block wholly inside the head or the tail segment needs
  only that segment's comparison — which is what the kernel's three guarded stores do — and both programs compute the
  same function `Cert.OneHot.oneHot` of the ids, exactly (every entry is 0 or 1, no rounding anywhere).
  The frames of the two kernel programs are the pipeline's run over the body's triple at each point; the reference's
  frame is its run with the result dropped; nothing was rewritten by the idealization, so there is nothing to preserve.
-/
import proofs.«412208_j44203803411098_3_alg».proof.Defs
import proofs.«412208_j44203803411098_3_alg».proof.Proof.Gen.Kernel
import proofs.«412208_j44203803411098_3_alg».proof.Proof.Gen.KernelIdeal
import proofs.«412208_j44203803411098_3_alg».proof.Proof.Gen.ReferenceIdeal
import proofs.«412208_j44203803411098_3_alg».proof.Proof.Gen.Pre_finite_inputs
import proofs.«412208_j44203803411098_3_alg».proof.Proof.Gen.ReferenceIdeal.Run
import proofs.«412208_j44203803411098_3_alg».proof.Proof.Gen.ReferenceIdeal.Read
import proofs.«412208_j44203803411098_3_alg».proof.Proof.KBFrame
import proofs.«412208_j44203803411098_3_alg».proof.Proof.KIFrame
import proofs.«412208_j44203803411098_3_alg».proof.Proof.KIFinal
import proofs.«412208_j44203803411098_3_alg».proof.Proof.RefValue
import proofs.«412208_j44203803411098_3_alg».proof.Proof.PreRange
import Idealize.ShloMosaic.Adequacy
import Idealize.ShloMosaic.Init

noncomputable section

namespace Cert.Proof

open Idealize.ShloMosaic Idealize.ShloMosaic.TcCoe Idealize.SL.Sem Cert.OneHot

/-- The word-level kernel runs to its end and leaves its arguments unchanged. -/
theorem frame_k : Cert.frame_Kernel := fun m ρ _ => Cert.Kernel.Body.frame m ρ

/-- So does the kernel read over the extended reals. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition both programs end with the one-hot function of the ids: the kernel by its pipeline's run
    and the blocks' cover of the array, the reference by its scatter read at an index. -/
theorem algebraic : Cert.algebraic_KernelIdeal_ReferenceIdeal := by
  intro m ρ m' ρ' hpre hagree
  have hr : ∀ c : Dev Cert.KernelIdeal.nD, InRange (Cert.KernelIdeal.Body.ids1 m c) (Cert.KernelIdeal.Body.ids2 m c) (Cert.KernelIdeal.Body.ids3 m c) :=
    fun c => Cert.OneHot.inRange_of_pre (F := Ideal) _ _ _ _ (hpre c)
  refine ⟨fun c => oneHot (Cert.KernelIdeal.Body.ids1 m c) (Cert.KernelIdeal.Body.ids2 m c) (Cert.KernelIdeal.Body.ids3 m c), ?_, ?_⟩
  · refine (θ_run Cert.KernelIdeal.defs _ _).mono (fun r h c => ⟨?_, ?_, ?_, ?_, ?_⟩) (Cert.KernelIdeal.Body.run_main (F := Ideal) m ρ)
    · exact ((h c).1 3).trans (Cert.KernelIdeal.Body.final3 m c (hr c))
    · exact ((h c).2 Cert.KernelIdeal.main_arg0 (Pipeline.mem_restRefs_of Cert.KernelIdeal.main_arg0 (by decide) (by decide))).trans (Cert.KernelIdeal.Gen.V_main_arg0 m c)
    · exact ((h c).2 Cert.KernelIdeal.main_arg1 (Pipeline.mem_restRefs_of Cert.KernelIdeal.main_arg1 (by decide) (by decide))).trans (Cert.KernelIdeal.Gen.V_main_arg1 m c)
    · exact ((h c).2 Cert.KernelIdeal.main_arg2 (Pipeline.mem_restRefs_of Cert.KernelIdeal.main_arg2 (by decide) (by decide))).trans (Cert.KernelIdeal.Gen.V_main_arg2 m c)
    · exact ((h c).2 Cert.KernelIdeal.main_arg3 (Pipeline.mem_restRefs_of Cert.KernelIdeal.main_arg3 (by decide) (by decide))).trans (Cert.KernelIdeal.Gen.V_main_arg3 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).2.1, (hagree c).2.2.1, (hagree c).2.2.2]
    exact Cert.ReferenceIdeal.RefValue.ref_eq _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
